-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S128x3264 : Shape := ⟨2, ![128, 3264]⟩
abbrev S128 : Shape := ⟨1, ![128]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S128x3264 : S_.BroadcastsInDim S128x3264 (![] : Fin 0 → Fin S128x3264.rank)
  reducesTo_S128x3264_S_d0_1 : S128x3264.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S16x2048x64 .f32) (main_arg1 : FVec F S128x3264 .f32) (main_arg2 : FVec F S128 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S128x3264 .f32 := Host.absf main_arg1
  let main_cst_0 : FVec F S_ .f32 := constant S_ .f32 0x7F800000#32
  let main_v5 : FVec F S128x3264 .f32 := broadcastInDim S128x3264 ![] bcast_S_S128x3264 main_cst_0
  let main_v6 : IVec S128x3264 1 := cmpf .olt main_v4 main_v5
  let main_c_1 : IVec S_ 1 := constantI S_ 1 1#1
  let main_v7 : IVec S_ 1 := (fun x v => Host.reduce IntOp.andi x v reducesTo_S128x3264_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S16x2048x64 : Shape := ⟨3, ![16, 2048, 64]⟩
abbrev S128x3264 : Shape := ⟨2, ![128, 3264]⟩
abbrev S128 : Shape := ⟨1, ![128]⟩
abbrev S3264x128 : Shape := ⟨2, ![3264, 128]⟩
abbrev S16x2048x128 : Shape := ⟨3, ![16, 2048, 128]⟩
abbrev S1x2048x64 : Shape := ⟨3, ![1, 2048, 64]⟩
abbrev S1x2048x128 : Shape := ⟨3, ![1, 2048, 128]⟩
abbrev S2048x128 : Shape := ⟨2, ![2048, 128]⟩
abbrev S2048x64 : Shape := ⟨2, ![2048, 64]⟩
abbrev S2038x64 : Shape := ⟨2, ![2038, 64]⟩
abbrev S10x64 : Shape := ⟨2, ![10, 64]⟩
abbrev S2039x64 : Shape := ⟨2, ![2039, 64]⟩
abbrev S9x64 : Shape := ⟨2, ![9, 64]⟩
abbrev S2040x64 : Shape := ⟨2, ![2040, 64]⟩
abbrev S8x64 : Shape := ⟨2, ![8, 64]⟩
abbrev S2041x64 : Shape := ⟨2, ![2041, 64]⟩
abbrev S7x64 : Shape := ⟨2, ![7, 64]⟩
abbrev S2048x256 : Shape := ⟨2, ![2048, 256]⟩
abbrev S256x128 : Shape := ⟨2, ![256, 128]⟩
abbrev S2042x64 : Shape := ⟨2, ![2042, 64]⟩
abbrev S6x64 : Shape := ⟨2, ![6, 64]⟩
abbrev S2043x64 : Shape := ⟨2, ![2043, 64]⟩
abbrev S5x64 : Shape := ⟨2, ![5, 64]⟩
abbrev S2044x64 : Shape := ⟨2, ![2044, 64]⟩
abbrev S4x64 : Shape := ⟨2, ![4, 64]⟩
abbrev S2045x64 : Shape := ⟨2, ![2045, 64]⟩
abbrev S3x64 : Shape := ⟨2, ![3, 64]⟩
abbrev S2046x64 : Shape := ⟨2, ![2046, 64]⟩
abbrev S2x64 : Shape := ⟨2, ![2, 64]⟩
abbrev S2047x64 : Shape := ⟨2, ![2047, 64]⟩
abbrev S1x64 : Shape := ⟨2, ![1, 64]⟩
abbrev S11x64 : Shape := ⟨2, ![11, 64]⟩
abbrev S2037x64 : Shape := ⟨2, ![2037, 64]⟩
abbrev S12x64 : Shape := ⟨2, ![12, 64]⟩
abbrev S2036x64 : Shape := ⟨2, ![2036, 64]⟩
abbrev S13x64 : Shape := ⟨2, ![13, 64]⟩
abbrev S2035x64 : Shape := ⟨2, ![2035, 64]⟩
abbrev S14x64 : Shape := ⟨2, ![14, 64]⟩
abbrev S2034x64 : Shape := ⟨2, ![2034, 64]⟩
abbrev S15x64 : Shape := ⟨2, ![15, 64]⟩
abbrev S2033x64 : Shape := ⟨2, ![2033, 64]⟩
abbrev S16x64 : Shape := ⟨2, ![16, 64]⟩
abbrev S2032x64 : Shape := ⟨2, ![2032, 64]⟩
abbrev S17x64 : Shape := ⟨2, ![17, 64]⟩
abbrev S2031x64 : Shape := ⟨2, ![2031, 64]⟩
abbrev S18x64 : Shape := ⟨2, ![18, 64]⟩
abbrev S2030x64 : Shape := ⟨2, ![2030, 64]⟩
abbrev S19x64 : Shape := ⟨2, ![19, 64]⟩
abbrev S2029x64 : Shape := ⟨2, ![2029, 64]⟩
abbrev S20x64 : Shape := ⟨2, ![20, 64]⟩
abbrev S2028x64 : Shape := ⟨2, ![2028, 64]⟩
abbrev S21x64 : Shape := ⟨2, ![21, 64]⟩
abbrev S2027x64 : Shape := ⟨2, ![2027, 64]⟩
abbrev S22x64 : Shape := ⟨2, ![22, 64]⟩
abbrev S2026x64 : Shape := ⟨2, ![2026, 64]⟩
abbrev S23x64 : Shape := ⟨2, ![23, 64]⟩
abbrev S2025x64 : Shape := ⟨2, ![2025, 64]⟩
abbrev S24x64 : Shape := ⟨2, ![24, 64]⟩
abbrev S2024x64 : Shape := ⟨2, ![2024, 64]⟩
abbrev S25x64 : Shape := ⟨2, ![25, 64]⟩
abbrev S2023x64 : Shape := ⟨2, ![2023, 64]⟩
abbrev S26x64 : Shape := ⟨2, ![26, 64]⟩
abbrev S2022x64 : Shape := ⟨2, ![2022, 64]⟩
abbrev S27x64 : Shape := ⟨2, ![27, 64]⟩
abbrev S2021x64 : Shape := ⟨2, ![2021, 64]⟩
abbrev S28x64 : Shape := ⟨2, ![28, 64]⟩
abbrev S2020x64 : Shape := ⟨2, ![2020, 64]⟩
abbrev S29x64 : Shape := ⟨2, ![29, 64]⟩
abbrev S2019x64 : Shape := ⟨2, ![2019, 64]⟩
abbrev S30x64 : Shape := ⟨2, ![30, 64]⟩
abbrev S2018x64 : Shape := ⟨2, ![2018, 64]⟩
abbrev S31x64 : Shape := ⟨2, ![31, 64]⟩
abbrev S2017x64 : Shape := ⟨2, ![2017, 64]⟩
abbrev S32x64 : Shape := ⟨2, ![32, 64]⟩
abbrev S2016x64 : Shape := ⟨2, ![2016, 64]⟩
abbrev S33x64 : Shape := ⟨2, ![33, 64]⟩
abbrev S2015x64 : Shape := ⟨2, ![2015, 64]⟩
abbrev S34x64 : Shape := ⟨2, ![34, 64]⟩
abbrev S2014x64 : Shape := ⟨2, ![2014, 64]⟩
abbrev S35x64 : Shape := ⟨2, ![35, 64]⟩
abbrev S2013x64 : Shape := ⟨2, ![2013, 64]⟩
abbrev S36x64 : Shape := ⟨2, ![36, 64]⟩
abbrev S2012x64 : Shape := ⟨2, ![2012, 64]⟩
abbrev S37x64 : Shape := ⟨2, ![37, 64]⟩
abbrev S2011x64 : Shape := ⟨2, ![2011, 64]⟩
abbrev S38x64 : Shape := ⟨2, ![38, 64]⟩
abbrev S2010x64 : Shape := ⟨2, ![2010, 64]⟩
abbrev S39x64 : Shape := ⟨2, ![39, 64]⟩
abbrev S2009x64 : Shape := ⟨2, ![2009, 64]⟩
abbrev S40x64 : Shape := ⟨2, ![40, 64]⟩
abbrev S2008x64 : Shape := ⟨2, ![2008, 64]⟩
abbrev S2048x192 : Shape := ⟨2, ![2048, 192]⟩
abbrev S192x128 : Shape := ⟨2, ![192, 128]⟩
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x2048x64, .f32⟩
  | .hbm, ⟨1, _⟩ => ⟨S128x3264, .f32⟩
  | .hbm, ⟨2, _⟩ => ⟨S128, .f32⟩
  | .hbm, ⟨3, _⟩ => ⟨S16x2048x64, .bf16⟩
  | .hbm, ⟨4, _⟩ => ⟨S3264x128, .f32⟩
  | .hbm, ⟨5, _⟩ => ⟨S3264x128, .bf16⟩
  | .hbm, ⟨6, _⟩ => ⟨S16x2048x128, .f32⟩
  | .local _ .vmem, ⟨0, _⟩ => ⟨S1x2048x64, .bf16⟩
  | .local _ .vmem, ⟨1, _⟩ => ⟨S1x2048x64, .bf16⟩
  | .local _ .vmem, ⟨2, _⟩ => ⟨S3264x128, .bf16⟩
  | .local _ .vmem, ⟨3, _⟩ => ⟨S128, .f32⟩
  | .local _ .vmem, ⟨4, _⟩ => ⟨S1x2048x128, .f32⟩
  | .local _ .vmem, ⟨5, _⟩ => ⟨S1x2048x128, .f32⟩
  | .local _ .vmem, ⟨6, _⟩ => ⟨S2048x128, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3264x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  transposes_S128x3264_S3264x128_1_0 : S128x3264.Transposes [1, 0] S3264x128
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S2048x64_o10_0_S2038x64 : S2048x64.Slices ![10, 0] S2038x64
  concatenates_S2038x64_S10x64_S2048x64_d0 : Shape.Concatenates [S2038x64, S10x64] S2048x64 0
  slices_S2048x64_o9_0_S2039x64 : S2048x64.Slices ![9, 0] S2039x64
  concatenates_S2039x64_S9x64_S2048x64_d0 : Shape.Concatenates [S2039x64, S9x64] S2048x64 0
  slices_S2048x64_o8_0_S2040x64 : S2048x64.Slices ![8, 0] S2040x64
  concatenates_S2040x64_S8x64_S2048x64_d0 : Shape.Concatenates [S2040x64, S8x64] S2048x64 0
  slices_S2048x64_o7_0_S2041x64 : S2048x64.Slices ![7, 0] S2041x64
  concatenates_S2041x64_S7x64_S2048x64_d0 : Shape.Concatenates [S2041x64, S7x64] S2048x64 0
  concatenates_S2048x64_S2048x64_S2048x64_S2048x64_S2048x256_d1 : Shape.Concatenates [S2048x64, S2048x64, S2048x64, S2048x64] S2048x256 1
  inb_S3264x128_S256x128_0_0 : ∀ a, (![0, 0] : Fin 2 → Nat) a + S256x128.size a ≤ S3264x128.size a
  h_S256x128 : 0 < S256x128.numel
  shapeCasts_S256x128_S256x128 : S256x128.ShapeCasts S256x128
  slices_S2048x64_o6_0_S2042x64 : S2048x64.Slices ![6, 0] S2042x64
  concatenates_S2042x64_S6x64_S2048x64_d0 : Shape.Concatenates [S2042x64, S6x64] S2048x64 0
  slices_S2048x64_o5_0_S2043x64 : S2048x64.Slices ![5, 0] S2043x64
  concatenates_S2043x64_S5x64_S2048x64_d0 : Shape.Concatenates [S2043x64, S5x64] S2048x64 0
  slices_S2048x64_o4_0_S2044x64 : S2048x64.Slices ![4, 0] S2044x64
  concatenates_S2044x64_S4x64_S2048x64_d0 : Shape.Concatenates [S2044x64, S4x64] S2048x64 0
  slices_S2048x64_o3_0_S2045x64 : S2048x64.Slices ![3, 0] S2045x64
  concatenates_S2045x64_S3x64_S2048x64_d0 : Shape.Concatenates [S2045x64, S3x64] S2048x64 0
  inb_S3264x128_S256x128_256_0 : ∀ a, (![256, 0] : Fin 2 → Nat) a + S256x128.size a ≤ S3264x128.size a
  slices_S2048x64_o2_0_S2046x64 : S2048x64.Slices ![2, 0] S2046x64
  concatenates_S2046x64_S2x64_S2048x64_d0 : Shape.Concatenates [S2046x64, S2x64] S2048x64 0
  slices_S2048x64_o1_0_S2047x64 : S2048x64.Slices ![1, 0] S2047x64
  concatenates_S2047x64_S1x64_S2048x64_d0 : Shape.Concatenates [S2047x64, S1x64] S2048x64 0
  slices_S2048x64_o0_0_S2047x64 : S2048x64.Slices ![0, 0] S2047x64
  concatenates_S1x64_S2047x64_S2048x64_d0 : Shape.Concatenates [S1x64, S2047x64] S2048x64 0
  inb_S3264x128_S256x128_512_0 : ∀ a, (![512, 0] : Fin 2 → Nat) a + S256x128.size a ≤ S3264x128.size a
  slices_S2048x64_o0_0_S2046x64 : S2048x64.Slices ![0, 0] S2046x64
  concatenates_S2x64_S2046x64_S2048x64_d0 : Shape.Concatenates [S2x64, S2046x64] S2048x64 0
  slices_S2048x64_o0_0_S2045x64 : S2048x64.Slices ![0, 0] S2045x64
  concatenates_S3x64_S2045x64_S2048x64_d0 : Shape.Concatenates [S3x64, S2045x64] S2048x64 0
  slices_S2048x64_o0_0_S2044x64 : S2048x64.Slices ![0, 0] S2044x64
  concatenates_S4x64_S2044x64_S2048x64_d0 : Shape.Concatenates [S4x64, S2044x64] S2048x64 0
  slices_S2048x64_o0_0_S2043x64 : S2048x64.Slices ![0, 0] S2043x64
  concatenates_S5x64_S2043x64_S2048x64_d0 : Shape.Concatenates [S5x64, S2043x64] S2048x64 0
  inb_S3264x128_S256x128_768_0 : ∀ a, (![768, 0] : Fin 2 → Nat) a + S256x128.size a ≤ S3264x128.size a
  slices_S2048x64_o0_0_S2042x64 : S2048x64.Slices ![0, 0] S2042x64
  concatenates_S6x64_S2042x64_S2048x64_d0 : Shape.Concatenates [S6x64, S2042x64] S2048x64 0
  slices_S2048x64_o0_0_S2041x64 : S2048x64.Slices ![0, 0] S2041x64
  concatenates_S7x64_S2041x64_S2048x64_d0 : Shape.Concatenates [S7x64, S2041x64] S2048x64 0
  slices_S2048x64_o0_0_S2040x64 : S2048x64.Slices ![0, 0] S2040x64
  concatenates_S8x64_S2040x64_S2048x64_d0 : Shape.Concatenates [S8x64, S2040x64] S2048x64 0
  slices_S2048x64_o0_0_S2039x64 : S2048x64.Slices ![0, 0] S2039x64
  concatenates_S9x64_S2039x64_S2048x64_d0 : Shape.Concatenates [S9x64, S2039x64] S2048x64 0
  inb_S3264x128_S256x128_1024_0 : ∀ a, (![1024, 0] : Fin 2 → Nat) a + S256x128.size a ≤ S3264x128.size a
  slices_S2048x64_o0_0_S2038x64 : S2048x64.Slices ![0, 0] S2038x64
  concatenates_S10x64_S2038x64_S2048x64_d0 : Shape.Concatenates [S10x64, S2038x64] S2048x64 0
  slices_S2048x64_o0_0_S2037x64 : S2048x64.Slices ![0, 0] S2037x64
  concatenates_S11x64_S2037x64_S2048x64_d0 : Shape.Concatenates [S11x64, S2037x64] S2048x64 0
  slices_S2048x64_o0_0_S2036x64 : S2048x64.Slices ![0, 0] S2036x64
  concatenates_S12x64_S2036x64_S2048x64_d0 : Shape.Concatenates [S12x64, S2036x64] S2048x64 0
  slices_S2048x64_o0_0_S2035x64 : S2048x64.Slices ![0, 0] S2035x64
  concatenates_S13x64_S2035x64_S2048x64_d0 : Shape.Concatenates [S13x64, S2035x64] S2048x64 0
  inb_S3264x128_S256x128_1280_0 : ∀ a, (![1280, 0] : Fin 2 → Nat) a + S256x128.size a ≤ S3264x128.size a
  slices_S2048x64_o0_0_S2034x64 : S2048x64.Slices ![0, 0] S2034x64
  concatenates_S14x64_S2034x64_S2048x64_d0 : Shape.Concatenates [S14x64, S2034x64] S2048x64 0
  slices_S2048x64_o0_0_S2033x64 : S2048x64.Slices ![0, 0] S2033x64
  concatenates_S15x64_S2033x64_S2048x64_d0 : Shape.Concatenates [S15x64, S2033x64] S2048x64 0
  slices_S2048x64_o0_0_S2032x64 : S2048x64.Slices ![0, 0] S2032x64
  concatenates_S16x64_S2032x64_S2048x64_d0 : Shape.Concatenates [S16x64, S2032x64] S2048x64 0
  slices_S2048x64_o0_0_S2031x64 : S2048x64.Slices ![0, 0] S2031x64
  concatenates_S17x64_S2031x64_S2048x64_d0 : Shape.Concatenates [S17x64, S2031x64] S2048x64 0
  inb_S3264x128_S256x128_1536_0 : ∀ a, (![1536, 0] : Fin 2 → Nat) a + S256x128.size a ≤ S3264x128.size a
  slices_S2048x64_o0_0_S2030x64 : S2048x64.Slices ![0, 0] S2030x64
  concatenates_S18x64_S2030x64_S2048x64_d0 : Shape.Concatenates [S18x64, S2030x64] S2048x64 0
  slices_S2048x64_o0_0_S2029x64 : S2048x64.Slices ![0, 0] S2029x64
  concatenates_S19x64_S2029x64_S2048x64_d0 : Shape.Concatenates [S19x64, S2029x64] S2048x64 0
  slices_S2048x64_o0_0_S2028x64 : S2048x64.Slices ![0, 0] S2028x64
  concatenates_S20x64_S2028x64_S2048x64_d0 : Shape.Concatenates [S20x64, S2028x64] S2048x64 0
  slices_S2048x64_o0_0_S2027x64 : S2048x64.Slices ![0, 0] S2027x64
  concatenates_S21x64_S2027x64_S2048x64_d0 : Shape.Concatenates [S21x64, S2027x64] S2048x64 0
  inb_S3264x128_S256x128_1792_0 : ∀ a, (![1792, 0] : Fin 2 → Nat) a + S256x128.size a ≤ S3264x128.size a
  slices_S2048x64_o0_0_S2026x64 : S2048x64.Slices ![0, 0] S2026x64
  concatenates_S22x64_S2026x64_S2048x64_d0 : Shape.Concatenates [S22x64, S2026x64] S2048x64 0
  slices_S2048x64_o0_0_S2025x64 : S2048x64.Slices ![0, 0] S2025x64
  concatenates_S23x64_S2025x64_S2048x64_d0 : Shape.Concatenates [S23x64, S2025x64] S2048x64 0
  slices_S2048x64_o0_0_S2024x64 : S2048x64.Slices ![0, 0] S2024x64
  concatenates_S24x64_S2024x64_S2048x64_d0 : Shape.Concatenates [S24x64, S2024x64] S2048x64 0
  slices_S2048x64_o0_0_S2023x64 : S2048x64.Slices ![0, 0] S2023x64
  concatenates_S25x64_S2023x64_S2048x64_d0 : Shape.Concatenates [S25x64, S2023x64] S2048x64 0
  inb_S3264x128_S256x128_2048_0 : ∀ a, (![2048, 0] : Fin 2 → Nat) a + S256x128.size a ≤ S3264x128.size a
  slices_S2048x64_o0_0_S2022x64 : S2048x64.Slices ![0, 0] S2022x64
  concatenates_S26x64_S2022x64_S2048x64_d0 : Shape.Concatenates [S26x64, S2022x64] S2048x64 0
  slices_S2048x64_o0_0_S2021x64 : S2048x64.Slices ![0, 0] S2021x64
  concatenates_S27x64_S2021x64_S2048x64_d0 : Shape.Concatenates [S27x64, S2021x64] S2048x64 0
  slices_S2048x64_o0_0_S2020x64 : S2048x64.Slices ![0, 0] S2020x64
  concatenates_S28x64_S2020x64_S2048x64_d0 : Shape.Concatenates [S28x64, S2020x64] S2048x64 0
  slices_S2048x64_o0_0_S2019x64 : S2048x64.Slices ![0, 0] S2019x64
  concatenates_S29x64_S2019x64_S2048x64_d0 : Shape.Concatenates [S29x64, S2019x64] S2048x64 0
  inb_S3264x128_S256x128_2304_0 : ∀ a, (![2304, 0] : Fin 2 → Nat) a + S256x128.size a ≤ S3264x128.size a
  slices_S2048x64_o0_0_S2018x64 : S2048x64.Slices ![0, 0] S2018x64
  concatenates_S30x64_S2018x64_S2048x64_d0 : Shape.Concatenates [S30x64, S2018x64] S2048x64 0
  slices_S2048x64_o0_0_S2017x64 : S2048x64.Slices ![0, 0] S2017x64
  concatenates_S31x64_S2017x64_S2048x64_d0 : Shape.Concatenates [S31x64, S2017x64] S2048x64 0
  slices_S2048x64_o0_0_S2016x64 : S2048x64.Slices ![0, 0] S2016x64
  concatenates_S32x64_S2016x64_S2048x64_d0 : Shape.Concatenates [S32x64, S2016x64] S2048x64 0
  slices_S2048x64_o0_0_S2015x64 : S2048x64.Slices ![0, 0] S2015x64
  concatenates_S33x64_S2015x64_S2048x64_d0 : Shape.Concatenates [S33x64, S2015x64] S2048x64 0
  inb_S3264x128_S256x128_2560_0 : ∀ a, (![2560, 0] : Fin 2 → Nat) a + S256x128.size a ≤ S3264x128.size a
  slices_S2048x64_o0_0_S2014x64 : S2048x64.Slices ![0, 0] S2014x64
  concatenates_S34x64_S2014x64_S2048x64_d0 : Shape.Concatenates [S34x64, S2014x64] S2048x64 0
  slices_S2048x64_o0_0_S2013x64 : S2048x64.Slices ![0, 0] S2013x64
  concatenates_S35x64_S2013x64_S2048x64_d0 : Shape.Concatenates [S35x64, S2013x64] S2048x64 0
  slices_S2048x64_o0_0_S2012x64 : S2048x64.Slices ![0, 0] S2012x64
  concatenates_S36x64_S2012x64_S2048x64_d0 : Shape.Concatenates [S36x64, S2012x64] S2048x64 0
  slices_S2048x64_o0_0_S2011x64 : S2048x64.Slices ![0, 0] S2011x64
  concatenates_S37x64_S2011x64_S2048x64_d0 : Shape.Concatenates [S37x64, S2011x64] S2048x64 0
  inb_S3264x128_S256x128_2816_0 : ∀ a, (![2816, 0] : Fin 2 → Nat) a + S256x128.size a ≤ S3264x128.size a
  slices_S2048x64_o0_0_S2010x64 : S2048x64.Slices ![0, 0] S2010x64
  concatenates_S38x64_S2010x64_S2048x64_d0 : Shape.Concatenates [S38x64, S2010x64] S2048x64 0
  slices_S2048x64_o0_0_S2009x64 : S2048x64.Slices ![0, 0] S2009x64
  concatenates_S39x64_S2009x64_S2048x64_d0 : Shape.Concatenates [S39x64, S2009x64] S2048x64 0
  slices_S2048x64_o0_0_S2008x64 : S2048x64.Slices ![0, 0] S2008x64
  concatenates_S40x64_S2008x64_S2048x64_d0 : Shape.Concatenates [S40x64, S2008x64] S2048x64 0
  concatenates_S2048x64_S2048x64_S2048x64_S2048x192_d1 : Shape.Concatenates [S2048x64, S2048x64, S2048x64] S2048x192 1
  inb_S3264x128_S192x128_3072_0 : ∀ a, (![3072, 0] : Fin 2 → Nat) a + S192x128.size a ≤ S3264x128.size a
  h_S192x128 : 0 < S192x128.numel
  shapeCasts_S192x128_S192x128 : S192x128.ShapeCasts S192x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  dot_S2048x256_S256x128_S2048x128_1_0_0_1_n_n_wf : DotDims.WF S2048x256 S256x128 S2048x128 [1] [0] [0] [1] [] []
  dot_S2048x192_S192x128_S2048x128_1_0_0_1_n_n_wf : DotDims.WF S2048x192 S192x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S16x2048x64.size a
  hwx0_0 : ∀ i : grid0.Coords, EltTy.bits .bf16 = 32 ∨ (Rect.block (s := S16x2048x64) S1x2048x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3264x128.size a ≤ S3264x128.size a
  hwx0_1 : ∀ i : grid0.Coords, EltTy.bits .bf16 = 32 ∨ (Rect.block (s := S3264x128) S3264x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S16x2048x128.size a
  hwx0_3 : ∀ i : grid0.Coords, EltTy.bits .f32 = 32 ∨ (Rect.block (s := S16x2048x128) S1x2048x128.size (cc0_transform_3 i) (hinb0_3 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x192_S192x128_S2048x128_1_0_0_1_n_n : DotDims S2048x192 S192x128 S2048x128 where
  lhsContracting := [1]
  rhsContracting := [0]
  lhsNonContracting := [0]
  rhsNonContracting := [1]
  lhsBatch := []
  rhsBatch := []
  wf := dot_S2048x192_S192x128_S2048x128_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3264x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S128x3264 : Shape := ⟨2, ![128, 3264]⟩
abbrev S128 : Shape := ⟨1, ![128]⟩
abbrev S16x2038x64 : Shape := ⟨3, ![16, 2038, 64]⟩
abbrev S_ : Shape := ⟨0, ![]⟩
abbrev S16x2039x64 : Shape := ⟨3, ![16, 2039, 64]⟩
abbrev S16x2040x64 : Shape := ⟨3, ![16, 2040, 64]⟩
abbrev S16x2041x64 : Shape := ⟨3, ![16, 2041, 64]⟩
abbrev S16x2042x64 : Shape := ⟨3, ![16, 2042, 64]⟩
abbrev S16x2043x64 : Shape := ⟨3, ![16, 2043, 64]⟩
abbrev S16x2044x64 : Shape := ⟨3, ![16, 2044, 64]⟩
abbrev S16x2045x64 : Shape := ⟨3, ![16, 2045, 64]⟩
abbrev S16x2046x64 : Shape := ⟨3, ![16, 2046, 64]⟩
abbrev S16x2047x64 : Shape := ⟨3, ![16, 2047, 64]⟩
abbrev S16x2037x64 : Shape := ⟨3, ![16, 2037, 64]⟩
abbrev S16x2036x64 : Shape := ⟨3, ![16, 2036, 64]⟩
abbrev S16x2035x64 : Shape := ⟨3, ![16, 2035, 64]⟩
abbrev S16x2034x64 : Shape := ⟨3, ![16, 2034, 64]⟩
abbrev S16x2033x64 : Shape := ⟨3, ![16, 2033, 64]⟩
abbrev S16x2032x64 : Shape := ⟨3, ![16, 2032, 64]⟩
abbrev S16x2031x64 : Shape := ⟨3, ![16, 2031, 64]⟩
abbrev S16x2030x64 : Shape := ⟨3, ![16, 2030, 64]⟩
abbrev S16x2029x64 : Shape := ⟨3, ![16, 2029, 64]⟩
abbrev S16x2028x64 : Shape := ⟨3, ![16, 2028, 64]⟩
abbrev S16x2027x64 : Shape := ⟨3, ![16, 2027, 64]⟩
abbrev S16x2026x64 : Shape := ⟨3, ![16, 2026, 64]⟩
abbrev S16x2025x64 : Shape := ⟨3, ![16, 2025, 64]⟩
abbrev S16x2024x64 : Shape := ⟨3, ![16, 2024, 64]⟩
abbrev S16x2023x64 : Shape := ⟨3, ![16, 2023, 64]⟩
abbrev S16x2022x64 : Shape := ⟨3, ![16, 2022, 64]⟩
abbrev S16x2021x64 : Shape := ⟨3, ![16, 2021, 64]⟩
abbrev S16x2020x64 : Shape := ⟨3, ![16, 2020, 64]⟩
abbrev S16x2019x64 : Shape := ⟨3, ![16, 2019, 64]⟩
abbrev S16x2018x64 : Shape := ⟨3, ![16, 2018, 64]⟩
abbrev S16x2017x64 : Shape := ⟨3, ![16, 2017, 64]⟩
abbrev S16x2016x64 : Shape := ⟨3, ![16, 2016, 64]⟩
abbrev S16x2015x64 : Shape := ⟨3, ![16, 2015, 64]⟩
abbrev S16x2014x64 : Shape := ⟨3, ![16, 2014, 64]⟩
abbrev S16x2013x64 : Shape := ⟨3, ![16, 2013, 64]⟩
abbrev S16x2012x64 : Shape := ⟨3, ![16, 2012, 64]⟩
abbrev S16x2011x64 : Shape := ⟨3, ![16, 2011, 64]⟩
abbrev S16x2010x64 : Shape := ⟨3, ![16, 2010, 64]⟩
abbrev S16x2009x64 : Shape := ⟨3, ![16, 2009, 64]⟩
abbrev S16x2008x64 : Shape := ⟨3, ![16, 2008, 64]⟩
abbrev S16x2048x1024 : Shape := ⟨3, ![16, 2048, 1024]⟩
abbrev S16x2048x192 : Shape := ⟨3, ![16, 2048, 192]⟩
abbrev S16x2048x3264 : Shape := ⟨3, ![16, 2048, 3264]⟩
abbrev S16x2048x128 : Shape := ⟨3, ![16, 2048, 128]⟩
abbrev S1x1x128 : Shape := ⟨3, ![1, 1, 128]⟩

abbrev nBuf : Space → Nat
  | .hbm => 212
  | .vmem => 0
  | .smem => 0
  | _ => 0

abbrev hbmTy0_0 (i : Nat) : BufTy := match i % 128 with
  | 0 => ⟨S16x2048x64, .f32⟩
  | 1 => ⟨S128x3264, .f32⟩
  | 2 => ⟨S128, .f32⟩
  | 3 => ⟨S16x2038x64, .f32⟩
  | 4 => ⟨S_, .i32⟩
  | 5 => ⟨S_, .f32⟩
  | 6 => ⟨S16x2048x64, .f32⟩
  | 7 => ⟨S16x2039x64, .f32⟩
  | 8 => ⟨S_, .i32⟩
  | 9 => ⟨S_, .f32⟩
  | 10 => ⟨S16x2048x64, .f32⟩
  | 11 => ⟨S16x2040x64, .f32⟩
  | 12 => ⟨S_, .i32⟩
  | 13 => ⟨S_, .f32⟩
  | 14 => ⟨S16x2048x64, .f32⟩
  | 15 => ⟨S16x2041x64, .f32⟩
  | 16 => ⟨S_, .i32⟩
  | 17 => ⟨S_, .f32⟩
  | 18 => ⟨S16x2048x64, .f32⟩
  | 19 => ⟨S16x2042x64, .f32⟩
  | 20 => ⟨S_, .i32⟩
  | 21 => ⟨S_, .f32⟩
  | 22 => ⟨S16x2048x64, .f32⟩
  | 23 => ⟨S16x2043x64, .f32⟩
  | 24 => ⟨S_, .i32⟩
  | 25 => ⟨S_, .f32⟩
  | 26 => ⟨S16x2048x64, .f32⟩
  | 27 => ⟨S16x2044x64, .f32⟩
  | 28 => ⟨S_, .i32⟩
  | 29 => ⟨S_, .f32⟩
  | 30 => ⟨S16x2048x64, .f32⟩
  | 31 => ⟨S16x2045x64, .f32⟩
  | 32 => ⟨S_, .i32⟩
  | 33 => ⟨S_, .f32⟩
  | 34 => ⟨S16x2048x64, .f32⟩
  | 35 => ⟨S16x2046x64, .f32⟩
  | 36 => ⟨S_, .i32⟩
  | 37 => ⟨S_, .f32⟩
  | 38 => ⟨S16x2048x64, .f32⟩
  | 39 => ⟨S16x2047x64, .f32⟩
  | 40 => ⟨S_, .i32⟩
  | 41 => ⟨S_, .f32⟩
  | 42 => ⟨S16x2048x64, .f32⟩
  | 43 => ⟨S16x2047x64, .f32⟩
  | 44 => ⟨S_, .i32⟩
  | 45 => ⟨S_, .f32⟩
  | 46 => ⟨S16x2048x64, .f32⟩
  | 47 => ⟨S16x2046x64, .f32⟩
  | 48 => ⟨S_, .i32⟩
  | 49 => ⟨S_, .f32⟩
  | 50 => ⟨S16x2048x64, .f32⟩
  | 51 => ⟨S16x2045x64, .f32⟩
  | 52 => ⟨S_, .i32⟩
  | 53 => ⟨S_, .f32⟩
  | 54 => ⟨S16x2048x64, .f32⟩
  | 55 => ⟨S16x2044x64, .f32⟩
  | 56 => ⟨S_, .i32⟩
  | 57 => ⟨S_, .f32⟩
  | 58 => ⟨S16x2048x64, .f32⟩
  | 59 => ⟨S16x2043x64, .f32⟩
  | 60 => ⟨S_, .i32⟩
  | 61 => ⟨S_, .f32⟩
  | 62 => ⟨S16x2048x64, .f32⟩
  | 63 => ⟨S16x2042x64, .f32⟩
  | 64 => ⟨S_, .i32⟩
  | 65 => ⟨S_, .f32⟩
  | 66 => ⟨S16x2048x64, .f32⟩
  | 67 => ⟨S16x2041x64, .f32⟩
  | 68 => ⟨S_, .i32⟩
  | 69 => ⟨S_, .f32⟩
  | 70 => ⟨S16x2048x64, .f32⟩
  | 71 => ⟨S16x2040x64, .f32⟩
  | 72 => ⟨S_, .i32⟩
  | 73 => ⟨S_, .f32⟩
  | 74 => ⟨S16x2048x64, .f32⟩
  | 75 => ⟨S16x2039x64, .f32⟩
  | 76 => ⟨S_, .i32⟩
  | 77 => ⟨S_, .f32⟩
  | 78 => ⟨S16x2048x64, .f32⟩
  | 79 => ⟨S16x2038x64, .f32⟩
  | 80 => ⟨S_, .i32⟩
  | 81 => ⟨S_, .f32⟩
  | 82 => ⟨S16x2048x64, .f32⟩
  | 83 => ⟨S16x2037x64, .f32⟩
  | 84 => ⟨S_, .i32⟩
  | 85 => ⟨S_, .f32⟩
  | 86 => ⟨S16x2048x64, .f32⟩
  | 87 => ⟨S16x2036x64, .f32⟩
  | 88 => ⟨S_, .i32⟩
  | 89 => ⟨S_, .f32⟩
  | 90 => ⟨S16x2048x64, .f32⟩
  | 91 => ⟨S16x2035x64, .f32⟩
  | 92 => ⟨S_, .i32⟩
  | 93 => ⟨S_, .f32⟩
  | 94 => ⟨S16x2048x64, .f32⟩
  | 95 => ⟨S16x2034x64, .f32⟩
  | 96 => ⟨S_, .i32⟩
  | 97 => ⟨S_, .f32⟩
  | 98 => ⟨S16x2048x64, .f32⟩
  | 99 => ⟨S16x2033x64, .f32⟩
  | 100 => ⟨S_, .i32⟩
  | 101 => ⟨S_, .f32⟩
  | 102 => ⟨S16x2048x64, .f32⟩
  | 103 => ⟨S16x2032x64, .f32⟩
  | 104 => ⟨S_, .i32⟩
  | 105 => ⟨S_, .f32⟩
  | 106 => ⟨S16x2048x64, .f32⟩
  | 107 => ⟨S16x2031x64, .f32⟩
  | 108 => ⟨S_, .i32⟩
  | 109 => ⟨S_, .f32⟩
  | 110 => ⟨S16x2048x64, .f32⟩
  | 111 => ⟨S16x2030x64, .f32⟩
  | 112 => ⟨S_, .i32⟩
  | 113 => ⟨S_, .f32⟩
  | 114 => ⟨S16x2048x64, .f32⟩
  | 115 => ⟨S16x2029x64, .f32⟩
  | 116 => ⟨S_, .i32⟩
  | 117 => ⟨S_, .f32⟩
  | 118 => ⟨S16x2048x64, .f32⟩
  | 119 => ⟨S16x2028x64, .f32⟩
  | 120 => ⟨S_, .i32⟩
  | 121 => ⟨S_, .f32⟩
  | 122 => ⟨S16x2048x64, .f32⟩
  | 123 => ⟨S16x2027x64, .f32⟩
  | 124 => ⟨S_, .i32⟩
  | 125 => ⟨S_, .f32⟩
  | 126 => ⟨S16x2048x64, .f32⟩
  | 127 => ⟨S16x2026x64, .f32⟩
  | _ => ⟨S16x2048x64, .f32⟩

abbrev hbmTy0_1 (i : Nat) : BufTy := match i % 128 with
  | 0 => ⟨S_, .i32⟩
  | 1 => ⟨S_, .f32⟩
  | 2 => ⟨S16x2048x64, .f32⟩
  | 3 => ⟨S16x2025x64, .f32⟩
  | 4 => ⟨S_, .i32⟩
  | 5 => ⟨S_, .f32⟩
  | 6 => ⟨S16x2048x64, .f32⟩
  | 7 => ⟨S16x2024x64, .f32⟩
  | 8 => ⟨S_, .i32⟩
  | 9 => ⟨S_, .f32⟩
  | 10 => ⟨S16x2048x64, .f32⟩
  | 11 => ⟨S16x2023x64, .f32⟩
  | 12 => ⟨S_, .i32⟩
  | 13 => ⟨S_, .f32⟩
  | 14 => ⟨S16x2048x64, .f32⟩
  | 15 => ⟨S16x2022x64, .f32⟩
  | 16 => ⟨S_, .i32⟩
  | 17 => ⟨S_, .f32⟩
  | 18 => ⟨S16x2048x64, .f32⟩
  | 19 => ⟨S16x2021x64, .f32⟩
  | 20 => ⟨S_, .i32⟩
  | 21 => ⟨S_, .f32⟩
  | 22 => ⟨S16x2048x64, .f32⟩
  | 23 => ⟨S16x2020x64, .f32⟩
  | 24 => ⟨S_, .i32⟩
  | 25 => ⟨S_, .f32⟩
  | 26 => ⟨S16x2048x64, .f32⟩
  | 27 => ⟨S16x2019x64, .f32⟩
  | 28 => ⟨S_, .i32⟩
  | 29 => ⟨S_, .f32⟩
  | 30 => ⟨S16x2048x64, .f32⟩
  | 31 => ⟨S16x2018x64, .f32⟩
  | 32 => ⟨S_, .i32⟩
  | 33 => ⟨S_, .f32⟩
  | 34 => ⟨S16x2048x64, .f32⟩
  | 35 => ⟨S16x2017x64, .f32⟩
  | 36 => ⟨S_, .i32⟩
  | 37 => ⟨S_, .f32⟩
  | 38 => ⟨S16x2048x64, .f32⟩
  | 39 => ⟨S16x2016x64, .f32⟩
  | 40 => ⟨S_, .i32⟩
  | 41 => ⟨S_, .f32⟩
  | 42 => ⟨S16x2048x64, .f32⟩
  | 43 => ⟨S16x2015x64, .f32⟩
  | 44 => ⟨S_, .i32⟩
  | 45 => ⟨S_, .f32⟩
  | 46 => ⟨S16x2048x64, .f32⟩
  | 47 => ⟨S16x2014x64, .f32⟩
  | 48 => ⟨S_, .i32⟩
  | 49 => ⟨S_, .f32⟩
  | 50 => ⟨S16x2048x64, .f32⟩
  | 51 => ⟨S16x2013x64, .f32⟩
  | 52 => ⟨S_, .i32⟩
  | 53 => ⟨S_, .f32⟩
  | 54 => ⟨S16x2048x64, .f32⟩
  | 55 => ⟨S16x2012x64, .f32⟩
  | 56 => ⟨S_, .i32⟩
  | 57 => ⟨S_, .f32⟩
  | 58 => ⟨S16x2048x64, .f32⟩
  | 59 => ⟨S16x2011x64, .f32⟩
  | 60 => ⟨S_, .i32⟩
  | 61 => ⟨S_, .f32⟩
  | 62 => ⟨S16x2048x64, .f32⟩
  | 63 => ⟨S16x2010x64, .f32⟩
  | 64 => ⟨S_, .i32⟩
  | 65 => ⟨S_, .f32⟩
  | 66 => ⟨S16x2048x64, .f32⟩
  | 67 => ⟨S16x2009x64, .f32⟩
  | 68 => ⟨S_, .i32⟩
  | 69 => ⟨S_, .f32⟩
  | 70 => ⟨S16x2048x64, .f32⟩
  | 71 => ⟨S16x2008x64, .f32⟩
  | 72 => ⟨S_, .i32⟩
  | 73 => ⟨S_, .f32⟩
  | 74 => ⟨S16x2048x64, .f32⟩
  | 75 => ⟨S16x2048x1024, .f32⟩
  | 76 => ⟨S16x2048x1024, .f32⟩
  | 77 => ⟨S16x2048x1024, .f32⟩
  | 78 => ⟨S16x2048x192, .f32⟩
  | 79 => ⟨S16x2048x3264, .f32⟩
  | 80 => ⟨S16x2048x128, .f32⟩
  | 81 => ⟨S1x1x128, .f32⟩
  | 82 => ⟨S16x2048x128, .f32⟩
  | 83 => ⟨S16x2048x128, .f32⟩
  | _ => ⟨S16x2048x64, .f32⟩

abbrev hbmTy (i : Nat) : BufTy := match i / 128 with
  | 0 => hbmTy0_0 i
  | 1 => hbmTy0_1 i
  | _ => ⟨S16x2048x64, .f32⟩

abbrev bufTy : (tb : Table) → Fin (tcTables nBuf tb) → BufTy
  | .hbm, ⟨i, _⟩ => hbmTy i
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_call2_v0 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_call3_v0 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_call4_v0 : Ref sig .tc := ⟨.hbm, 21, rfl⟩
abbrev main_v9 : Ref sig .tc := ⟨.hbm, 22, rfl⟩
abbrev main_v10 : Ref sig .tc := ⟨.hbm, 23, rfl⟩
abbrev main_c_4 : Ref sig .tc := ⟨.hbm, 24, rfl⟩
abbrev main_call5_v0 : Ref sig .tc := ⟨.hbm, 25, rfl⟩
abbrev main_v11 : Ref sig .tc := ⟨.hbm, 26, rfl⟩
abbrev main_v12 : Ref sig .tc := ⟨.hbm, 27, rfl⟩
abbrev main_c_5 : Ref sig .tc := ⟨.hbm, 28, rfl⟩
abbrev main_call6_v0 : Ref sig .tc := ⟨.hbm, 29, rfl⟩
abbrev main_v13 : Ref sig .tc := ⟨.hbm, 30, rfl⟩
abbrev main_v14 : Ref sig .tc := ⟨.hbm, 31, rfl⟩
abbrev main_c_6 : Ref sig .tc := ⟨.hbm, 32, rfl⟩
abbrev main_call7_v0 : Ref sig .tc := ⟨.hbm, 33, rfl⟩
abbrev main_v15 : Ref sig .tc := ⟨.hbm, 34, rfl⟩
abbrev main_v16 : Ref sig .tc := ⟨.hbm, 35, rfl⟩
abbrev main_c_7 : Ref sig .tc := ⟨.hbm, 36, rfl⟩
abbrev main_call8_v0 : Ref sig .tc := ⟨.hbm, 37, rfl⟩
abbrev main_v17 : Ref sig .tc := ⟨.hbm, 38, rfl⟩
abbrev main_v18 : Ref sig .tc := ⟨.hbm, 39, rfl⟩
abbrev main_c_8 : Ref sig .tc := ⟨.hbm, 40, rfl⟩
abbrev main_call9_v0 : Ref sig .tc := ⟨.hbm, 41, rfl⟩
abbrev main_v19 : Ref sig .tc := ⟨.hbm, 42, rfl⟩
abbrev main_v20 : Ref sig .tc := ⟨.hbm, 43, rfl⟩
abbrev main_c_9 : Ref sig .tc := ⟨.hbm, 44, rfl⟩
abbrev main_call10_v0 : Ref sig .tc := ⟨.hbm, 45, rfl⟩
abbrev main_v21 : Ref sig .tc := ⟨.hbm, 46, rfl⟩
abbrev main_v22 : Ref sig .tc := ⟨.hbm, 47, rfl⟩
abbrev main_c_10 : Ref sig .tc := ⟨.hbm, 48, rfl⟩
abbrev main_call11_v0 : Ref sig .tc := ⟨.hbm, 49, rfl⟩
abbrev main_v23 : Ref sig .tc := ⟨.hbm, 50, rfl⟩
abbrev main_v24 : Ref sig .tc := ⟨.hbm, 51, rfl⟩
abbrev main_c_11 : Ref sig .tc := ⟨.hbm, 52, rfl⟩
abbrev main_call12_v0 : Ref sig .tc := ⟨.hbm, 53, rfl⟩
abbrev main_v25 : Ref sig .tc := ⟨.hbm, 54, rfl⟩
abbrev main_v26 : Ref sig .tc := ⟨.hbm, 55, rfl⟩
abbrev main_c_12 : Ref sig .tc := ⟨.hbm, 56, rfl⟩
abbrev main_call13_v0 : Ref sig .tc := ⟨.hbm, 57, rfl⟩
abbrev main_v27 : Ref sig .tc := ⟨.hbm, 58, rfl⟩
abbrev main_v28 : Ref sig .tc := ⟨.hbm, 59, rfl⟩
abbrev main_c_13 : Ref sig .tc := ⟨.hbm, 60, rfl⟩
abbrev main_call14_v0 : Ref sig .tc := ⟨.hbm, 61, rfl⟩
abbrev main_v29 : Ref sig .tc := ⟨.hbm, 62, rfl⟩
abbrev main_v30 : Ref sig .tc := ⟨.hbm, 63, rfl⟩
abbrev main_c_14 : Ref sig .tc := ⟨.hbm, 64, rfl⟩
abbrev main_call15_v0 : Ref sig .tc := ⟨.hbm, 65, rfl⟩
abbrev main_v31 : Ref sig .tc := ⟨.hbm, 66, rfl⟩
abbrev main_v32 : Ref sig .tc := ⟨.hbm, 67, rfl⟩
abbrev main_c_15 : Ref sig .tc := ⟨.hbm, 68, rfl⟩
abbrev main_call16_v0 : Ref sig .tc := ⟨.hbm, 69, rfl⟩
abbrev main_v33 : Ref sig .tc := ⟨.hbm, 70, rfl⟩
abbrev main_v34 : Ref sig .tc := ⟨.hbm, 71, rfl⟩
abbrev main_c_16 : Ref sig .tc := ⟨.hbm, 72, rfl⟩
abbrev main_call17_v0 : Ref sig .tc := ⟨.hbm, 73, rfl⟩
abbrev main_v35 : Ref sig .tc := ⟨.hbm, 74, rfl⟩
abbrev main_v36 : Ref sig .tc := ⟨.hbm, 75, rfl⟩
abbrev main_c_17 : Ref sig .tc := ⟨.hbm, 76, rfl⟩
abbrev main_call18_v0 : Ref sig .tc := ⟨.hbm, 77, rfl⟩
abbrev main_v37 : Ref sig .tc := ⟨.hbm, 78, rfl⟩
abbrev main_v38 : Ref sig .tc := ⟨.hbm, 79, rfl⟩
abbrev main_c_18 : Ref sig .tc := ⟨.hbm, 80, rfl⟩
abbrev main_call19_v0 : Ref sig .tc := ⟨.hbm, 81, rfl⟩
abbrev main_v39 : Ref sig .tc := ⟨.hbm, 82, rfl⟩
abbrev main_v40 : Ref sig .tc := ⟨.hbm, 83, rfl⟩
abbrev main_c_19 : Ref sig .tc := ⟨.hbm, 84, rfl⟩
abbrev main_call20_v0 : Ref sig .tc := ⟨.hbm, 85, rfl⟩
abbrev main_v41 : Ref sig .tc := ⟨.hbm, 86, rfl⟩
abbrev main_v42 : Ref sig .tc := ⟨.hbm, 87, rfl⟩
abbrev main_c_20 : Ref sig .tc := ⟨.hbm, 88, rfl⟩
abbrev main_call21_v0 : Ref sig .tc := ⟨.hbm, 89, rfl⟩
abbrev main_v43 : Ref sig .tc := ⟨.hbm, 90, rfl⟩
abbrev main_v44 : Ref sig .tc := ⟨.hbm, 91, rfl⟩
abbrev main_c_21 : Ref sig .tc := ⟨.hbm, 92, rfl⟩
abbrev main_call22_v0 : Ref sig .tc := ⟨.hbm, 93, rfl⟩
abbrev main_v45 : Ref sig .tc := ⟨.hbm, 94, rfl⟩
abbrev main_v46 : Ref sig .tc := ⟨.hbm, 95, rfl⟩
abbrev main_c_22 : Ref sig .tc := ⟨.hbm, 96, rfl⟩
abbrev main_call23_v0 : Ref sig .tc := ⟨.hbm, 97, rfl⟩
abbrev main_v47 : Ref sig .tc := ⟨.hbm, 98, rfl⟩
abbrev main_v48 : Ref sig .tc := ⟨.hbm, 99, rfl⟩
abbrev main_c_23 : Ref sig .tc := ⟨.hbm, 100, rfl⟩
abbrev main_call24_v0 : Ref sig .tc := ⟨.hbm, 101, rfl⟩
abbrev main_v49 : Ref sig .tc := ⟨.hbm, 102, rfl⟩
abbrev main_v50 : Ref sig .tc := ⟨.hbm, 103, rfl⟩
abbrev main_c_24 : Ref sig .tc := ⟨.hbm, 104, rfl⟩
abbrev main_call25_v0 : Ref sig .tc := ⟨.hbm, 105, rfl⟩
abbrev main_v51 : Ref sig .tc := ⟨.hbm, 106, rfl⟩
abbrev main_v52 : Ref sig .tc := ⟨.hbm, 107, rfl⟩
abbrev main_c_25 : Ref sig .tc := ⟨.hbm, 108, rfl⟩
abbrev main_call26_v0 : Ref sig .tc := ⟨.hbm, 109, rfl⟩
abbrev main_v53 : Ref sig .tc := ⟨.hbm, 110, rfl⟩
abbrev main_v54 : Ref sig .tc := ⟨.hbm, 111, rfl⟩
abbrev main_c_26 : Ref sig .tc := ⟨.hbm, 112, rfl⟩
abbrev main_call27_v0 : Ref sig .tc := ⟨.hbm, 113, rfl⟩
abbrev main_v55 : Ref sig .tc := ⟨.hbm, 114, rfl⟩
abbrev main_v56 : Ref sig .tc := ⟨.hbm, 115, rfl⟩
abbrev main_c_27 : Ref sig .tc := ⟨.hbm, 116, rfl⟩
abbrev main_call28_v0 : Ref sig .tc := ⟨.hbm, 117, rfl⟩
abbrev main_v57 : Ref sig .tc := ⟨.hbm, 118, rfl⟩
abbrev main_v58 : Ref sig .tc := ⟨.hbm, 119, rfl⟩
abbrev main_c_28 : Ref sig .tc := ⟨.hbm, 120, rfl⟩
abbrev main_call29_v0 : Ref sig .tc := ⟨.hbm, 121, rfl⟩
abbrev main_v59 : Ref sig .tc := ⟨.hbm, 122, rfl⟩
abbrev main_v60 : Ref sig .tc := ⟨.hbm, 123, rfl⟩
abbrev main_c_29 : Ref sig .tc := ⟨.hbm, 124, rfl⟩
abbrev main_call30_v0 : Ref sig .tc := ⟨.hbm, 125, rfl⟩
abbrev main_v61 : Ref sig .tc := ⟨.hbm, 126, rfl⟩
abbrev main_v62 : Ref sig .tc := ⟨.hbm, 127, rfl⟩
abbrev main_c_30 : Ref sig .tc := ⟨.hbm, 128, rfl⟩
abbrev main_call31_v0 : Ref sig .tc := ⟨.hbm, 129, rfl⟩
abbrev main_v63 : Ref sig .tc := ⟨.hbm, 130, rfl⟩
abbrev main_v64 : Ref sig .tc := ⟨.hbm, 131, rfl⟩
abbrev main_c_31 : Ref sig .tc := ⟨.hbm, 132, rfl⟩
abbrev main_call32_v0 : Ref sig .tc := ⟨.hbm, 133, rfl⟩
abbrev main_v65 : Ref sig .tc := ⟨.hbm, 134, rfl⟩
abbrev main_v66 : Ref sig .tc := ⟨.hbm, 135, rfl⟩
abbrev main_c_32 : Ref sig .tc := ⟨.hbm, 136, rfl⟩
abbrev main_call33_v0 : Ref sig .tc := ⟨.hbm, 137, rfl⟩
abbrev main_v67 : Ref sig .tc := ⟨.hbm, 138, rfl⟩
abbrev main_v68 : Ref sig .tc := ⟨.hbm, 139, rfl⟩
abbrev main_c_33 : Ref sig .tc := ⟨.hbm, 140, rfl⟩
abbrev main_call34_v0 : Ref sig .tc := ⟨.hbm, 141, rfl⟩
abbrev main_v69 : Ref sig .tc := ⟨.hbm, 142, rfl⟩
abbrev main_v70 : Ref sig .tc := ⟨.hbm, 143, rfl⟩
abbrev main_c_34 : Ref sig .tc := ⟨.hbm, 144, rfl⟩
abbrev main_call35_v0 : Ref sig .tc := ⟨.hbm, 145, rfl⟩
abbrev main_v71 : Ref sig .tc := ⟨.hbm, 146, rfl⟩
abbrev main_v72 : Ref sig .tc := ⟨.hbm, 147, rfl⟩
abbrev main_c_35 : Ref sig .tc := ⟨.hbm, 148, rfl⟩
abbrev main_call36_v0 : Ref sig .tc := ⟨.hbm, 149, rfl⟩
abbrev main_v73 : Ref sig .tc := ⟨.hbm, 150, rfl⟩
abbrev main_v74 : Ref sig .tc := ⟨.hbm, 151, rfl⟩
abbrev main_c_36 : Ref sig .tc := ⟨.hbm, 152, rfl⟩
abbrev main_call37_v0 : Ref sig .tc := ⟨.hbm, 153, rfl⟩
abbrev main_v75 : Ref sig .tc := ⟨.hbm, 154, rfl⟩
abbrev main_v76 : Ref sig .tc := ⟨.hbm, 155, rfl⟩
abbrev main_c_37 : Ref sig .tc := ⟨.hbm, 156, rfl⟩
abbrev main_call38_v0 : Ref sig .tc := ⟨.hbm, 157, rfl⟩
abbrev main_v77 : Ref sig .tc := ⟨.hbm, 158, rfl⟩
abbrev main_v78 : Ref sig .tc := ⟨.hbm, 159, rfl⟩
abbrev main_c_38 : Ref sig .tc := ⟨.hbm, 160, rfl⟩
abbrev main_call39_v0 : Ref sig .tc := ⟨.hbm, 161, rfl⟩
abbrev main_v79 : Ref sig .tc := ⟨.hbm, 162, rfl⟩
abbrev main_v80 : Ref sig .tc := ⟨.hbm, 163, rfl⟩
abbrev main_c_39 : Ref sig .tc := ⟨.hbm, 164, rfl⟩
abbrev main_call40_v0 : Ref sig .tc := ⟨.hbm, 165, rfl⟩
abbrev main_v81 : Ref sig .tc := ⟨.hbm, 166, rfl⟩
abbrev main_v82 : Ref sig .tc := ⟨.hbm, 167, rfl⟩
abbrev main_c_40 : Ref sig .tc := ⟨.hbm, 168, rfl⟩
abbrev main_call41_v0 : Ref sig .tc := ⟨.hbm, 169, rfl⟩
abbrev main_v83 : Ref sig .tc := ⟨.hbm, 170, rfl⟩
abbrev main_v84 : Ref sig .tc := ⟨.hbm, 171, rfl⟩
abbrev main_c_41 : Ref sig .tc := ⟨.hbm, 172, rfl⟩
abbrev main_call42_v0 : Ref sig .tc := ⟨.hbm, 173, rfl⟩
abbrev main_v85 : Ref sig .tc := ⟨.hbm, 174, rfl⟩
abbrev main_v86 : Ref sig .tc := ⟨.hbm, 175, rfl⟩
abbrev main_c_42 : Ref sig .tc := ⟨.hbm, 176, rfl⟩
abbrev main_call43_v0 : Ref sig .tc := ⟨.hbm, 177, rfl⟩
abbrev main_v87 : Ref sig .tc := ⟨.hbm, 178, rfl⟩
abbrev main_v88 : Ref sig .tc := ⟨.hbm, 179, rfl⟩
abbrev main_c_43 : Ref sig .tc := ⟨.hbm, 180, rfl⟩
abbrev main_call44_v0 : Ref sig .tc := ⟨.hbm, 181, rfl⟩
abbrev main_v89 : Ref sig .tc := ⟨.hbm, 182, rfl⟩
abbrev main_v90 : Ref sig .tc := ⟨.hbm, 183, rfl⟩
abbrev main_c_44 : Ref sig .tc := ⟨.hbm, 184, rfl⟩
abbrev main_call45_v0 : Ref sig .tc := ⟨.hbm, 185, rfl⟩
abbrev main_v91 : Ref sig .tc := ⟨.hbm, 186, rfl⟩
abbrev main_v92 : Ref sig .tc := ⟨.hbm, 187, rfl⟩
abbrev main_c_45 : Ref sig .tc := ⟨.hbm, 188, rfl⟩
abbrev main_call46_v0 : Ref sig .tc := ⟨.hbm, 189, rfl⟩
abbrev main_v93 : Ref sig .tc := ⟨.hbm, 190, rfl⟩
abbrev main_v94 : Ref sig .tc := ⟨.hbm, 191, rfl⟩
abbrev main_c_46 : Ref sig .tc := ⟨.hbm, 192, rfl⟩
abbrev main_call47_v0 : Ref sig .tc := ⟨.hbm, 193, rfl⟩
abbrev main_v95 : Ref sig .tc := ⟨.hbm, 194, rfl⟩
abbrev main_v96 : Ref sig .tc := ⟨.hbm, 195, rfl⟩
abbrev main_c_47 : Ref sig .tc := ⟨.hbm, 196, rfl⟩
abbrev main_call48_v0 : Ref sig .tc := ⟨.hbm, 197, rfl⟩
abbrev main_v97 : Ref sig .tc := ⟨.hbm, 198, rfl⟩
abbrev main_v98 : Ref sig .tc := ⟨.hbm, 199, rfl⟩
abbrev main_c_48 : Ref sig .tc := ⟨.hbm, 200, rfl⟩
abbrev main_call49_v0 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩
abbrev main_v108 : Ref sig .tc := ⟨.hbm, 211, rfl⟩

abbrev nD : Nat := 1
abbrev τ : Topo := Topo.v7x

variable {F : FTy → Type} [FloatOps F]

class Facts₀ : Prop where
  slices_S16x2048x64_S16x2038x64_0_10_0 : S16x2048x64.Slices ![0, 10, 0] S16x2038x64
  pads_S16x2038x64_S16x2048x64_000_0100_000 : S16x2038x64.Pads (![0, 0, 0] : Fin 3 → Nat) ![0, 10, 0] ![0, 0, 0] S16x2048x64
  h_S_ : 0 < S_.numel
  slices_S16x2048x64_S16x2039x64_0_9_0 : S16x2048x64.Slices ![0, 9, 0] S16x2039x64
  pads_S16x2039x64_S16x2048x64_000_090_000 : S16x2039x64.Pads (![0, 0, 0] : Fin 3 → Nat) ![0, 9, 0] ![0, 0, 0] S16x2048x64
  slices_S16x2048x64_S16x2040x64_0_8_0 : S16x2048x64.Slices ![0, 8, 0] S16x2040x64
  pads_S16x2040x64_S16x2048x64_000_080_000 : S16x2040x64.Pads (![0, 0, 0] : Fin 3 → Nat) ![0, 8, 0] ![0, 0, 0] S16x2048x64
  slices_S16x2048x64_S16x2041x64_0_7_0 : S16x2048x64.Slices ![0, 7, 0] S16x2041x64
  pads_S16x2041x64_S16x2048x64_000_070_000 : S16x2041x64.Pads (![0, 0, 0] : Fin 3 → Nat) ![0, 7, 0] ![0, 0, 0] S16x2048x64
  slices_S16x2048x64_S16x2042x64_0_6_0 : S16x2048x64.Slices ![0, 6, 0] S16x2042x64
  pads_S16x2042x64_S16x2048x64_000_060_000 : S16x2042x64.Pads (![0, 0, 0] : Fin 3 → Nat) ![0, 6, 0] ![0, 0, 0] S16x2048x64
  slices_S16x2048x64_S16x2043x64_0_5_0 : S16x2048x64.Slices ![0, 5, 0] S16x2043x64
  pads_S16x2043x64_S16x2048x64_000_050_000 : S16x2043x64.Pads (![0, 0, 0] : Fin 3 → Nat) ![0, 5, 0] ![0, 0, 0] S16x2048x64
  slices_S16x2048x64_S16x2044x64_0_4_0 : S16x2048x64.Slices ![0, 4, 0] S16x2044x64
  pads_S16x2044x64_S16x2048x64_000_040_000 : S16x2044x64.Pads (![0, 0, 0] : Fin 3 → Nat) ![0, 4, 0] ![0, 0, 0] S16x2048x64
  slices_S16x2048x64_S16x2045x64_0_3_0 : S16x2048x64.Slices ![0, 3, 0] S16x2045x64
  pads_S16x2045x64_S16x2048x64_000_030_000 : S16x2045x64.Pads (![0, 0, 0] : Fin 3 → Nat) ![0, 3, 0] ![0, 0, 0] S16x2048x64
  slices_S16x2048x64_S16x2046x64_0_2_0 : S16x2048x64.Slices ![0, 2, 0] S16x2046x64
  pads_S16x2046x64_S16x2048x64_000_020_000 : S16x2046x64.Pads (![0, 0, 0] : Fin 3 → Nat) ![0, 2, 0] ![0, 0, 0] S16x2048x64
  slices_S16x2048x64_S16x2047x64_0_1_0 : S16x2048x64.Slices ![0, 1, 0] S16x2047x64
  pads_S16x2047x64_S16x2048x64_000_010_000 : S16x2047x64.Pads (![0, 0, 0] : Fin 3 → Nat) ![0, 1, 0] ![0, 0, 0] S16x2048x64
  slices_S16x2048x64_S16x2047x64_0_0_0 : S16x2048x64.Slices ![0, 0, 0] S16x2047x64
  pads_S16x2047x64_S16x2048x64_000_100_000 : S16x2047x64.Pads (![0, 1, 0] : Fin 3 → Nat) ![0, 0, 0] ![0, 0, 0] S16x2048x64
  slices_S16x2048x64_S16x2046x64_0_0_0 : S16x2048x64.Slices ![0, 0, 0] S16x2046x64
  pads_S16x2046x64_S16x2048x64_000_200_000 : S16x2046x64.Pads (![0, 2, 0] : Fin 3 → Nat) ![0, 0, 0] ![0, 0, 0] S16x2048x64
  slices_S16x2048x64_S16x2045x64_0_0_0 : S16x2048x64.Slices ![0, 0, 0] S16x2045x64
  pads_S16x2045x64_S16x2048x64_000_300_000 : S16x2045x64.Pads (![0, 3, 0] : Fin 3 → Nat) ![0, 0, 0] ![0, 0, 0] S16x2048x64
  slices_S16x2048x64_S16x2044x64_0_0_0 : S16x2048x64.Slices ![0, 0, 0] S16x2044x64
  pads_S16x2044x64_S16x2048x64_000_400_000 : S16x2044x64.Pads (![0, 4, 0] : Fin 3 → Nat) ![0, 0, 0] ![0, 0, 0] S16x2048x64
  slices_S16x2048x64_S16x2043x64_0_0_0 : S16x2048x64.Slices ![0, 0, 0] S16x2043x64
  pads_S16x2043x64_S16x2048x64_000_500_000 : S16x2043x64.Pads (![0, 5, 0] : Fin 3 → Nat) ![0, 0, 0] ![0, 0, 0] S16x2048x64
  slices_S16x2048x64_S16x2042x64_0_0_0 : S16x2048x64.Slices ![0, 0, 0] S16x2042x64
  pads_S16x2042x64_S16x2048x64_000_600_000 : S16x2042x64.Pads (![0, 6, 0] : Fin 3 → Nat) ![0, 0, 0] ![0, 0, 0] S16x2048x64
  slices_S16x2048x64_S16x2041x64_0_0_0 : S16x2048x64.Slices ![0, 0, 0] S16x2041x64
  pads_S16x2041x64_S16x2048x64_000_700_000 : S16x2041x64.Pads (![0, 7, 0] : Fin 3 → Nat) ![0, 0, 0] ![0, 0, 0] S16x2048x64
  slices_S16x2048x64_S16x2040x64_0_0_0 : S16x2048x64.Slices ![0, 0, 0] S16x2040x64
  pads_S16x2040x64_S16x2048x64_000_800_000 : S16x2040x64.Pads (![0, 8, 0] : Fin 3 → Nat) ![0, 0, 0] ![0, 0, 0] S16x2048x64
  slices_S16x2048x64_S16x2039x64_0_0_0 : S16x2048x64.Slices ![0, 0, 0] S16x2039x64
  pads_S16x2039x64_S16x2048x64_000_900_000 : S16x2039x64.Pads (![0, 9, 0] : Fin 3 → Nat) ![0, 0, 0] ![0, 0, 0] S16x2048x64
  slices_S16x2048x64_S16x2038x64_0_0_0 : S16x2048x64.Slices ![0, 0, 0] S16x2038x64
  pads_S16x2038x64_S16x2048x64_000_1000_000 : S16x2038x64.Pads (![0, 10, 0] : Fin 3 → Nat) ![0, 0, 0] ![0, 0, 0] S16x2048x64
  slices_S16x2048x64_S16x2037x64_0_0_0 : S16x2048x64.Slices ![0, 0, 0] S16x2037x64
  pads_S16x2037x64_S16x2048x64_000_1100_000 : S16x2037x64.Pads (![0, 11, 0] : Fin 3 → Nat) ![0, 0, 0] ![0, 0, 0] S16x2048x64
  slices_S16x2048x64_S16x2036x64_0_0_0 : S16x2048x64.Slices ![0, 0, 0] S16x2036x64
  pads_S16x2036x64_S16x2048x64_000_1200_000 : S16x2036x64.Pads (![0, 12, 0] : Fin 3 → Nat) ![0, 0, 0] ![0, 0, 0] S16x2048x64
  slices_S16x2048x64_S16x2035x64_0_0_0 : S16x2048x64.Slices ![0, 0, 0] S16x2035x64
  pads_S16x2035x64_S16x2048x64_000_1300_000 : S16x2035x64.Pads (![0, 13, 0] : Fin 3 → Nat) ![0, 0, 0] ![0, 0, 0] S16x2048x64
  slices_S16x2048x64_S16x2034x64_0_0_0 : S16x2048x64.Slices ![0, 0, 0] S16x2034x64
  pads_S16x2034x64_S16x2048x64_000_1400_000 : S16x2034x64.Pads (![0, 14, 0] : Fin 3 → Nat) ![0, 0, 0] ![0, 0, 0] S16x2048x64
  slices_S16x2048x64_S16x2033x64_0_0_0 : S16x2048x64.Slices ![0, 0, 0] S16x2033x64
  pads_S16x2033x64_S16x2048x64_000_1500_000 : S16x2033x64.Pads (![0, 15, 0] : Fin 3 → Nat) ![0, 0, 0] ![0, 0, 0] S16x2048x64
  slices_S16x2048x64_S16x2032x64_0_0_0 : S16x2048x64.Slices ![0, 0, 0] S16x2032x64
  pads_S16x2032x64_S16x2048x64_000_1600_000 : S16x2032x64.Pads (![0, 16, 0] : Fin 3 → Nat) ![0, 0, 0] ![0, 0, 0] S16x2048x64
  slices_S16x2048x64_S16x2031x64_0_0_0 : S16x2048x64.Slices ![0, 0, 0] S16x2031x64
  pads_S16x2031x64_S16x2048x64_000_1700_000 : S16x2031x64.Pads (![0, 17, 0] : Fin 3 → Nat) ![0, 0, 0] ![0, 0, 0] S16x2048x64
  slices_S16x2048x64_S16x2030x64_0_0_0 : S16x2048x64.Slices ![0, 0, 0] S16x2030x64
  pads_S16x2030x64_S16x2048x64_000_1800_000 : S16x2030x64.Pads (![0, 18, 0] : Fin 3 → Nat) ![0, 0, 0] ![0, 0, 0] S16x2048x64
  slices_S16x2048x64_S16x2029x64_0_0_0 : S16x2048x64.Slices ![0, 0, 0] S16x2029x64
  pads_S16x2029x64_S16x2048x64_000_1900_000 : S16x2029x64.Pads (![0, 19, 0] : Fin 3 → Nat) ![0, 0, 0] ![0, 0, 0] S16x2048x64
  slices_S16x2048x64_S16x2028x64_0_0_0 : S16x2048x64.Slices ![0, 0, 0] S16x2028x64
  pads_S16x2028x64_S16x2048x64_000_2000_000 : S16x2028x64.Pads (![0, 20, 0] : Fin 3 → Nat) ![0, 0, 0] ![0, 0, 0] S16x2048x64
  slices_S16x2048x64_S16x2027x64_0_0_0 : S16x2048x64.Slices ![0, 0, 0] S16x2027x64
  pads_S16x2027x64_S16x2048x64_000_2100_000 : S16x2027x64.Pads (![0, 21, 0] : Fin 3 → Nat) ![0, 0, 0] ![0, 0, 0] S16x2048x64
  slices_S16x2048x64_S16x2026x64_0_0_0 : S16x2048x64.Slices ![0, 0, 0] S16x2026x64
  pads_S16x2026x64_S16x2048x64_000_2200_000 : S16x2026x64.Pads (![0, 22, 0] : Fin 3 → Nat) ![0, 0, 0] ![0, 0, 0] S16x2048x64
  slices_S16x2048x64_S16x2025x64_0_0_0 : S16x2048x64.Slices ![0, 0, 0] S16x2025x64
  pads_S16x2025x64_S16x2048x64_000_2300_000 : S16x2025x64.Pads (![0, 23, 0] : Fin 3 → Nat) ![0, 0, 0] ![0, 0, 0] S16x2048x64
  slices_S16x2048x64_S16x2024x64_0_0_0 : S16x2048x64.Slices ![0, 0, 0] S16x2024x64
  pads_S16x2024x64_S16x2048x64_000_2400_000 : S16x2024x64.Pads (![0, 24, 0] : Fin 3 → Nat) ![0, 0, 0] ![0, 0, 0] S16x2048x64
  slices_S16x2048x64_S16x2023x64_0_0_0 : S16x2048x64.Slices ![0, 0, 0] S16x2023x64
  pads_S16x2023x64_S16x2048x64_000_2500_000 : S16x2023x64.Pads (![0, 25, 0] : Fin 3 → Nat) ![0, 0, 0] ![0, 0, 0] S16x2048x64
  slices_S16x2048x64_S16x2022x64_0_0_0 : S16x2048x64.Slices ![0, 0, 0] S16x2022x64
  pads_S16x2022x64_S16x2048x64_000_2600_000 : S16x2022x64.Pads (![0, 26, 0] : Fin 3 → Nat) ![0, 0, 0] ![0, 0, 0] S16x2048x64
  slices_S16x2048x64_S16x2021x64_0_0_0 : S16x2048x64.Slices ![0, 0, 0] S16x2021x64
  pads_S16x2021x64_S16x2048x64_000_2700_000 : S16x2021x64.Pads (![0, 27, 0] : Fin 3 → Nat) ![0, 0, 0] ![0, 0, 0] S16x2048x64
  slices_S16x2048x64_S16x2020x64_0_0_0 : S16x2048x64.Slices ![0, 0, 0] S16x2020x64
  pads_S16x2020x64_S16x2048x64_000_2800_000 : S16x2020x64.Pads (![0, 28, 0] : Fin 3 → Nat) ![0, 0, 0] ![0, 0, 0] S16x2048x64
  slices_S16x2048x64_S16x2019x64_0_0_0 : S16x2048x64.Slices ![0, 0, 0] S16x2019x64
  pads_S16x2019x64_S16x2048x64_000_2900_000 : S16x2019x64.Pads (![0, 29, 0] : Fin 3 → Nat) ![0, 0, 0] ![0, 0, 0] S16x2048x64
  slices_S16x2048x64_S16x2018x64_0_0_0 : S16x2048x64.Slices ![0, 0, 0] S16x2018x64
  pads_S16x2018x64_S16x2048x64_000_3000_000 : S16x2018x64.Pads (![0, 30, 0] : Fin 3 → Nat) ![0, 0, 0] ![0, 0, 0] S16x2048x64
  slices_S16x2048x64_S16x2017x64_0_0_0 : S16x2048x64.Slices ![0, 0, 0] S16x2017x64
  pads_S16x2017x64_S16x2048x64_000_3100_000 : S16x2017x64.Pads (![0, 31, 0] : Fin 3 → Nat) ![0, 0, 0] ![0, 0, 0] S16x2048x64
  slices_S16x2048x64_S16x2016x64_0_0_0 : S16x2048x64.Slices ![0, 0, 0] S16x2016x64
  pads_S16x2016x64_S16x2048x64_000_3200_000 : S16x2016x64.Pads (![0, 32, 0] : Fin 3 → Nat) ![0, 0, 0] ![0, 0, 0] S16x2048x64
  slices_S16x2048x64_S16x2015x64_0_0_0 : S16x2048x64.Slices ![0, 0, 0] S16x2015x64
  pads_S16x2015x64_S16x2048x64_000_3300_000 : S16x2015x64.Pads (![0, 33, 0] : Fin 3 → Nat) ![0, 0, 0] ![0, 0, 0] S16x2048x64
  slices_S16x2048x64_S16x2014x64_0_0_0 : S16x2048x64.Slices ![0, 0, 0] S16x2014x64
  pads_S16x2014x64_S16x2048x64_000_3400_000 : S16x2014x64.Pads (![0, 34, 0] : Fin 3 → Nat) ![0, 0, 0] ![0, 0, 0] S16x2048x64
  slices_S16x2048x64_S16x2013x64_0_0_0 : S16x2048x64.Slices ![0, 0, 0] S16x2013x64
  pads_S16x2013x64_S16x2048x64_000_3500_000 : S16x2013x64.Pads (![0, 35, 0] : Fin 3 → Nat) ![0, 0, 0] ![0, 0, 0] S16x2048x64
  slices_S16x2048x64_S16x2012x64_0_0_0 : S16x2048x64.Slices ![0, 0, 0] S16x2012x64
  pads_S16x2012x64_S16x2048x64_000_3600_000 : S16x2012x64.Pads (![0, 36, 0] : Fin 3 → Nat) ![0, 0, 0] ![0, 0, 0] S16x2048x64
  slices_S16x2048x64_S16x2011x64_0_0_0 : S16x2048x64.Slices ![0, 0, 0] S16x2011x64
  pads_S16x2011x64_S16x2048x64_000_3700_000 : S16x2011x64.Pads (![0, 37, 0] : Fin 3 → Nat) ![0, 0, 0] ![0, 0, 0] S16x2048x64
  slices_S16x2048x64_S16x2010x64_0_0_0 : S16x2048x64.Slices ![0, 0, 0] S16x2010x64
  pads_S16x2010x64_S16x2048x64_000_3800_000 : S16x2010x64.Pads (![0, 38, 0] : Fin 3 → Nat) ![0, 0, 0] ![0, 0, 0] S16x2048x64
  slices_S16x2048x64_S16x2009x64_0_0_0 : S16x2048x64.Slices ![0, 0, 0] S16x2009x64
  pads_S16x2009x64_S16x2048x64_000_3900_000 : S16x2009x64.Pads (![0, 39, 0] : Fin 3 → Nat) ![0, 0, 0] ![0, 0, 0] S16x2048x64
  slices_S16x2048x64_S16x2008x64_0_0_0 : S16x2048x64.Slices ![0, 0, 0] S16x2008x64
  pads_S16x2008x64_S16x2048x64_000_4000_000 : S16x2008x64.Pads (![0, 40, 0] : Fin 3 → Nat) ![0, 0, 0] ![0, 0, 0] S16x2048x64
  concatenates_S16x2048x64_S16x2048x64_S16x2048x64_S16x2048x64_S16x2048x64_S16x2048x64_S16x2048x64_S16x2048x64_S16x2048x64_S16x2048x64_S16x2048x64_S16x2048x64_S16x2048x64_S16x2048x64_S16x2048x64_S16x2048x64_S16x2048x1024_d2 : Shape.Concatenates [S16x2048x64, S16x2048x64, S16x2048x64, S16x2048x64, S16x2048x64, S16x2048x64, S16x2048x64, S16x2048x64, S16x2048x64, S16x2048x64, S16x2048x64, S16x2048x64, S16x2048x64, S16x2048x64, S16x2048x64, S16x2048x64] S16x2048x1024 2
  concatenates_S16x2048x64_S16x2048x64_S16x2048x64_S16x2048x192_d2 : Shape.Concatenates [S16x2048x64, S16x2048x64, S16x2048x64] S16x2048x192 2
  concatenates_S16x2048x1024_S16x2048x1024_S16x2048x1024_S16x2048x192_S16x2048x3264_d2 : Shape.Concatenates [S16x2048x1024, S16x2048x1024, S16x2048x1024, S16x2048x192] S16x2048x3264 2
  bcast_S128_S1x1x128_2 : S128.BroadcastsInDim S1x1x128 (![2] : Fin 1 → Fin S1x1x128.rank)
  bcast_S1x1x128_S16x2048x128_0_1_2 : S1x1x128.BroadcastsInDim S16x2048x128 (![0, 1, 2] : Fin 3 → Fin S16x2048x128.rank)
  dot_S16x2048x3264_S128x3264_S16x2048x128_2_1_01_0_n_n_wf : DotDims.WF S16x2048x3264 S128x3264 S16x2048x128 [2] [1] [0, 1] [0] [] []

variable [Facts₀]

def dot_S16x2048x3264_S128x3264_S16x2048x128_2_1_01_0_n_n : DotDims S16x2048x3264 S128x3264 S16x2048x128 where
  lhsContracting := [2]
  rhsContracting := [1]
  lhsNonContracting := [0, 1]
  rhsNonContracting := [0]
  lhsBatch := []
  rhsBatch := []
  wf := dot_S16x2048x3264_S128x3264_S16x2048x128_2_1_01_0_n_n_wf

class Facts : Prop extends Facts₀ where

variable [Facts]
-- ==== Proof.KernelPiece.lean ====
/-
  What one grid point of the kernel leaves in its output block, as a pure function of the point's three input
  blocks: the sequence's block `x0` ([1, 2048, 64]), the transposed weights `x1` ([3264, 128]) and the bias `x2`.

  The body keeps a running total in a scratch matrix: it is set to zero, then thirteen times the product of a
  block of lagged copies of `x0` with the matching rows of `x1` is added to it (`acc1` … `acc13`: twelve blocks
  of four lags and 256 rows, a last one of three lags and 192 rows), and the block written out is the last total
  plus the bias row. Every load of the scratch reads what the store just before it wrote, so the thirteen
  totals compose.
-/
import proofs.«100027_j36764920054343_1_alg».proof.Proof.Gen.KernelIdeal.Value

set_option maxRecDepth 16384

noncomputable section

namespace Cert.KernelIdeal.LagValue

open Cert.KernelIdeal Cert.KernelIdeal.Gen Idealize.ShloMosaic Idealize.ShloMosaic.TcCoe Idealize.ShloMosaic.Tactic Idealize.SL.Sem

variable {F : FTy → Type} [FloatOps F]

theorem hz3 : (![0, 0, 0] : Fin 3 → Nat) = fun _ => 0 := by funext a; fin_cases a <;> rfl
theorem hz2 : (![0, 0] : Fin 2 → Nat) = fun _ => 0 := by funext a; fin_cases a <;> rfl
theorem hz1 : (![0] : Fin 1 → Nat) = fun _ => 0 := by funext a; fin_cases a; rfl

/-- The running total before the first block: zero. -/
def acc0 : FVec F S2048x128 .f32 := k0_pay4
/-- After lags 0–3 (rows 0–255 of the weights). -/
def acc1 (x0 : Vec F S1x2048x64 .bf16) (x1 : Vec F S3264x128 .bf16) : FVec F S2048x128 .f32 :=
  k0_pay5 x0 (View.ld x1 (Rect.unit ![0, 0] ![256, 128] inb_S3264x128_S256x128_0_0)) acc0
/-- After lags 4–7. -/
def acc2 (x0 : Vec F S1x2048x64 .bf16) (x1 : Vec F S3264x128 .bf16) : FVec F S2048x128 .f32 :=
  k0_pay10 (k0_pay6 x0) (k0_pay7 x0) (k0_pay8 x0) (k0_pay9 x0) (View.ld x1 (Rect.unit ![256, 0] ![256, 128] inb_S3264x128_S256x128_256_0)) (acc1 x0 x1)
/-- After lags 8–11. -/
def acc3 (x0 : Vec F S1x2048x64 .bf16) (x1 : Vec F S3264x128 .bf16) : FVec F S2048x128 .f32 :=
  k0_pay11 (k0_pay3 x0) (View.ld x1 (Rect.unit ![512, 0] ![256, 128] inb_S3264x128_S256x128_512_0)) (acc2 x0 x1)
/-- After lags 12–15. -/
def acc4 (x0 : Vec F S1x2048x64 .bf16) (x1 : Vec F S3264x128 .bf16) : FVec F S2048x128 .f32 :=
  k0_pay16 (k0_pay3 x0) (k0_pay12 (k0_pay3 x0)) (k0_pay13 (k0_pay3 x0)) k0_pay14 (k0_pay15 (k0_pay3 x0)) (View.ld x1 (Rect.unit ![768, 0] ![256, 128] inb_S3264x128_S256x128_768_0)) (acc3 x0 x1)
/-- After lags 16–19. -/
def acc5 (x0 : Vec F S1x2048x64 .bf16) (x1 : Vec F S3264x128 .bf16) : FVec F S2048x128 .f32 :=
  k0_pay17 (k0_pay3 x0) (View.ld x1 (Rect.unit ![1024, 0] ![256, 128] inb_S3264x128_S256x128_1024_0)) (acc4 x0 x1)
/-- After lags 20–23. -/
def acc6 (x0 : Vec F S1x2048x64 .bf16) (x1 : Vec F S3264x128 .bf16) : FVec F S2048x128 .f32 :=
  k0_pay19 (k0_pay3 x0) (k0_pay18 (k0_pay3 x0)) (FloatOps.ofBits FTy.bf16 0#16) (View.ld x1 (Rect.unit ![1280, 0] ![256, 128] inb_S3264x128_S256x128_1280_0)) (acc5 x0 x1)
/-- After lags 24–27. -/
def acc7 (x0 : Vec F S1x2048x64 .bf16) (x1 : Vec F S3264x128 .bf16) : FVec F S2048x128 .f32 :=
  k0_pay20 (k0_pay3 x0) (View.ld x1 (Rect.unit ![1536, 0] ![256, 128] inb_S3264x128_S256x128_1536_0)) (acc6 x0 x1)
/-- After lags 28–31. -/
def acc8 (x0 : Vec F S1x2048x64 .bf16) (x1 : Vec F S3264x128 .bf16) : FVec F S2048x128 .f32 :=
  k0_pay21 (k0_pay3 x0) (View.ld x1 (Rect.unit ![1792, 0] ![256, 128] inb_S3264x128_S256x128_1792_0)) (acc7 x0 x1)
/-- After lags 32–35. -/
def acc9 (x0 : Vec F S1x2048x64 .bf16) (x1 : Vec F S3264x128 .bf16) : FVec F S2048x128 .f32 :=
  k0_pay23 (acc8 x0 x1) (k0_pay22 (k0_pay3 x0) (View.ld x1 (Rect.unit ![2048, 0] ![256, 128] inb_S3264x128_S256x128_2048_0)))
/-- After lags 36–39. -/
def acc10 (x0 : Vec F S1x2048x64 .bf16) (x1 : Vec F S3264x128 .bf16) : FVec F S2048x128 .f32 :=
  k0_pay24 (k0_pay3 x0) (View.ld x1 (Rect.unit ![2304, 0] ![256, 128] inb_S3264x128_S256x128_2304_0)) (acc9 x0 x1)
/-- After lags 40–43. -/
def acc11 (x0 : Vec F S1x2048x64 .bf16) (x1 : Vec F S3264x128 .bf16) : FVec F S2048x128 .f32 :=
  k0_pay26 (k0_pay25 (k0_pay3 x0)) (View.ld x1 (Rect.unit ![2560, 0] ![256, 128] inb_S3264x128_S256x128_2560_0)) (acc10 x0 x1)
/-- After lags 44–47. -/
def acc12 (x0 : Vec F S1x2048x64 .bf16) (x1 : Vec F S3264x128 .bf16) : FVec F S2048x128 .f32 :=
  k0_pay27 (k0_pay3 x0) (View.ld x1 (Rect.unit ![2816, 0] ![256, 128] inb_S3264x128_S256x128_2816_0)) (acc11 x0 x1)
/-- After lags 48–50 (rows 3072–3263): the whole sum. -/
def acc13 (x0 : Vec F S1x2048x64 .bf16) (x1 : Vec F S3264x128 .bf16) : FVec F S2048x128 .f32 :=
  k0_pay1 (k0_pay28 (k0_pay3 x0)) (View.ld x1 (Rect.unit ![3072, 0] ![192, 128] inb_S3264x128_S192x128_3072_0)) (acc12 x0 x1)

/-- The block a grid point writes out: the last running total plus the bias, as one [1, 2048, 128] block. -/
theorem out_piece (c : Dev nD) (i : grid0.Coords) (arg1 : Memref sig .tc .vmem S1x2048x64 .bf16) (harg1 : arg1.IsWhole) (arg2 : Memref sig .tc .vmem S3264x128 .bf16) (harg2 : arg2.IsWhole) (arg3 : Memref sig .tc .vmem S128 .f32) (harg3 : arg3.IsWhole) (arg4 : Memref sig .tc .vmem S1x2048x128 .f32) (harg4 : arg4.IsWhole) (arg5 : Memref sig .tc .vmem S2048x128 .f32) (harg5 : arg5.IsWhole)
    (x0 : Vec F S1x2048x64 .bf16) (x1 : Vec F S3264x128 .bf16) (x2 : Vec F S128 .f32) :
    out0_A_3 (F := F) c i arg1 harg1 arg2 harg2 arg3 harg3 arg4 harg4 arg5 harg5 x0 x1 x2 = k0_pay2 (acc13 x0 x1) x2 := by
  unfold out0_A_3
  rw [View.read_writes_eq_canon _ _ _ (cover0_A_3 c i arg1 harg1 arg2 harg2 arg3 harg3 arg4 harg4 arg5 harg5 x0 x1 x2)]
  unfold kernelRun0_A
  dsimp only
  sl_unfold_words
  rw [View.canon_unit_zero hz3]
  simp only [View.readAt_eq_ld, harg1.read_unread, harg2.read_unread, harg3.read_unread,
    View.ld_unit_zero (S := S1x2048x64) hz3, View.ld_unit_zero (S := S128) hz1,
    View.readCov_unit_zero (S := S2048x128) _ hz2, View.readCov_cons_toLoadRect]
  rfl

end Cert.KernelIdeal.LagValue

end
-- ==== Proof.LibLagRows.lean ====
/-
  Rows of an array moved along the row axis, with a fill value where no row exists, read at an index.

  `lagAt z N x p l t` is entry `t + p - l` of a sequence `x` of `N` entries when that entry exists
  (`l ≤ t + p` and `t + p - l < N`), and the fill value `z` otherwise: the sequence delayed by `l - p`
  steps, `p` being the lag index of the unmoved copy. A vector program spells a delayed copy of a
  `[N, D]` array as a slice of the rows that survive set beside a block of fill rows (`concatenate`
  along the rows); a host program as the same slice padded with the fill value in front or behind.
  Each spelling, read at `(t, d)`, is `lagAt` of the column `d` — generic in every extent, so that one
  statement serves all the lags of a bank. A concatenation of same-shaped pieces along the columns is read
  at `(t, c)` as piece `c / D` at column `c % D`.
-/
import Idealize.ShloMosaic.PureOps.Ideal
import Idealize.ShloMosaic.Lib.ValueIdx
import Idealize.ShloMosaic.Lib.ValueLayout
import Idealize.ShloMosaic.Lib.Pipeline.Value
import Idealize.ShloMosaic.Lib.KernelVsHost

namespace LagRows

open Idealize.ShloMosaic Idealize.ShloMosaic.ValueIdx

variable {α : Type}

/-- Entry `t + p - l` of `x` where it exists, the fill value elsewhere. -/
def lagAt (z : α) (N : Nat) (x : Fin N → α) (p l t : Nat) : α :=
  if h : l ≤ t + p ∧ t + p - l < N then x ⟨t + p - l, h.2⟩ else z

/-- Where the source row exists, `lagAt` is that row. -/
theorem lagAt_of_row (z : α) (N : Nat) (x : Fin N → α) (p l t : Nat) (r : Fin N) (hr : r.val + l = t + p) :
    lagAt z N x p l t = x r := by
  unfold lagAt
  have h : l ≤ t + p ∧ t + p - l < N := ⟨by omega, by have := r.isLt; omega⟩
  rw [dif_pos h]
  exact congrArg x (Fin.ext (by show t + p - l = r.val; omega))

/-- Where the source row does not exist, `lagAt` is the fill value. -/
theorem lagAt_of_no_row (z : α) (N : Nat) (x : Fin N → α) (p l t : Nat) (h : ¬(l ≤ t + p ∧ t + p - l < N)) :
    lagAt z N x p l t = z := by
  unfold lagAt; rw [dif_neg h]

/-! ## A vector program: a slice of the rows beside a block of fill rows -/

/-- Rows `a, a+1, …` of `v` followed by `a` fill rows: the copy moved `a` rows towards the start. -/
theorem concat_slice_fill_apply {N D n a : Nat} (hN : a + n = N) (z : α)
    (v : (⟨2, ![N, D]⟩ : Shape).Idx → α)
    (hs : (⟨2, ![N, D]⟩ : Shape).Slices ![a, 0] ⟨2, ![n, D]⟩)
    (hc : Shape.Concatenates [(⟨2, ![n, D]⟩ : Shape), ⟨2, ![a, D]⟩] ⟨2, ![N, D]⟩ 0)
    (p l : Nat) (hl : l + a = p) (t : Fin N) (d : Fin D) :
    concatenate ⟨2, ![N, D]⟩ 0 [⟨⟨2, ![n, D]⟩, extractStridedSlice ⟨2, ![n, D]⟩ ![a, 0] v hs⟩,
        ⟨⟨2, ![a, D]⟩, broadcast ⟨2, ![a, D]⟩ z⟩] hc (ix2 t d)
      = lagAt z N (fun r => v (ix2 r d)) p l t.val := by
  have htN : t.val < N := t.isLt
  by_cases ht : t.val < n
  · refine (concatenate_pair_apply_left (t := ⟨2, ![N, D]⟩) (s₁ := ⟨2, ![n, D]⟩) (s₂ := ⟨2, ![a, D]⟩) (0 : Fin 2) _ _ hc (ix2 t d) rfl (ix2 (⟨t.val, ht⟩ : Fin n) d) ?_).trans ?_
    · intro b; match b with | ⟨0, _⟩ => rfl | ⟨1, _⟩ => rfl
    · rw [slice2_axis0_apply a v hs (⟨t.val, ht⟩ : Fin n) d (⟨a + t.val, by omega⟩ : Fin N) rfl]
      exact (lagAt_of_row z N (fun r => v (ix2 r d)) p l t.val ⟨a + t.val, by omega⟩ (by show a + t.val + l = t.val + p; omega)).symm
  · have hta : t.val - n < a := by omega
    refine (concatenate_pair_apply_right (t := ⟨2, ![N, D]⟩) (s₁ := ⟨2, ![n, D]⟩) (s₂ := ⟨2, ![a, D]⟩) (0 : Fin 2) _ _ hc (ix2 t d) rfl rfl (ix2 (⟨t.val - n, hta⟩ : Fin a) d) ?_ ?_).trans ?_
    · intro b hb; match b with | ⟨0, _⟩ => exact absurd rfl hb | ⟨1, _⟩ => rfl
    · show t.val - n + n = t.val; omega
    · exact (lagAt_of_no_row z N _ p l t.val (by omega)).symm

/-- `a` fill rows followed by the first rows of `v`: the copy moved `a` rows towards the end. -/
theorem concat_fill_slice_apply {N D n a : Nat} (hN : a + n = N) (z : α)
    (v : (⟨2, ![N, D]⟩ : Shape).Idx → α)
    (hs : (⟨2, ![N, D]⟩ : Shape).Slices ![0, 0] ⟨2, ![n, D]⟩)
    (hc : Shape.Concatenates [(⟨2, ![a, D]⟩ : Shape), ⟨2, ![n, D]⟩] ⟨2, ![N, D]⟩ 0)
    (p l : Nat) (hl : p + a = l) (t : Fin N) (d : Fin D) :
    concatenate ⟨2, ![N, D]⟩ 0 [⟨⟨2, ![a, D]⟩, broadcast ⟨2, ![a, D]⟩ z⟩,
        ⟨⟨2, ![n, D]⟩, extractStridedSlice ⟨2, ![n, D]⟩ ![0, 0] v hs⟩] hc (ix2 t d)
      = lagAt z N (fun r => v (ix2 r d)) p l t.val := by
  have htN : t.val < N := t.isLt
  by_cases ht : t.val < a
  · refine (concatenate_pair_apply_left (t := ⟨2, ![N, D]⟩) (s₁ := ⟨2, ![a, D]⟩) (s₂ := ⟨2, ![n, D]⟩) (0 : Fin 2) _ _ hc (ix2 t d) rfl (ix2 (⟨t.val, ht⟩ : Fin a) d) ?_).trans ?_
    · intro b; match b with | ⟨0, _⟩ => rfl | ⟨1, _⟩ => rfl
    · exact (lagAt_of_no_row z N _ p l t.val (by omega)).symm
  · have htn : t.val - a < n := by omega
    refine (concatenate_pair_apply_right (t := ⟨2, ![N, D]⟩) (s₁ := ⟨2, ![a, D]⟩) (s₂ := ⟨2, ![n, D]⟩) (0 : Fin 2) _ _ hc (ix2 t d) rfl rfl (ix2 (⟨t.val - a, htn⟩ : Fin n) d) ?_ ?_).trans ?_
    · intro b hb; match b with | ⟨0, _⟩ => exact absurd rfl hb | ⟨1, _⟩ => rfl
    · show t.val - a + a = t.val; omega
    · rw [slice2_axis0_apply 0 v hs (⟨t.val - a, htn⟩ : Fin n) d (⟨t.val - a, by omega⟩ : Fin N) (by show t.val - a = 0 + (t.val - a); omega)]
      exact (lagAt_of_row z N (fun r => v (ix2 r d)) p l t.val ⟨t.val - a, by omega⟩ (by show t.val - a + l = t.val + p; omega)).symm

/-! ## A host program: a slice of the rows, padded with the fill value -/

/-- Rows `a, a+1, …` of every matrix of a stack, padded behind with `a` rows of the fill value. -/
theorem pad_high_slice_apply {B N D n a : Nat} (hN : a + n = N)
    (X : (⟨3, ![B, N, D]⟩ : Shape).Idx → α) {u : Shape} (w : u.Idx → α) (hu : 0 < u.numel)
    (hs : (⟨3, ![B, N, D]⟩ : Shape).Slices ![0, a, 0] ⟨3, ![B, n, D]⟩)
    (hp : (⟨3, ![B, n, D]⟩ : Shape).Pads ![0, 0, 0] ![0, a, 0] ![0, 0, 0] ⟨3, ![B, N, D]⟩)
    (p l : Nat) (hl : l + a = p) (b : Fin B) (t : Fin N) (d : Fin D) :
    pad ⟨3, ![B, N, D]⟩ ![0, 0, 0] ![0, a, 0] ![0, 0, 0] (extractStridedSlice ⟨3, ![B, n, D]⟩ ![0, a, 0] X hs) w hp hu (ix3 b t d)
      = lagAt (w (Shape.Idx.first hu)) N (fun r => X (ix3 b r d)) p l t.val := by
  have htN : t.val < N := t.isLt
  by_cases ht : t.val < n
  · refine (pad_apply_of_inside _ _ _ _ w hp hu (ix3 b t d) (ix3 b (⟨t.val, ht⟩ : Fin n) d) ?_).trans ?_
    · intro ax; match ax with
      | ⟨0, _⟩ => show b.val = 0 + b.val * (0 + 1); omega
      | ⟨1, _⟩ => show t.val = 0 + t.val * (0 + 1); omega
      | ⟨2, _⟩ => show d.val = 0 + d.val * (0 + 1); omega
    · rw [slice3_axis1_apply a X hs b (⟨t.val, ht⟩ : Fin n) d (⟨a + t.val, by omega⟩ : Fin N) rfl]
      exact (lagAt_of_row _ N (fun r => X (ix3 b r d)) p l t.val ⟨a + t.val, by omega⟩ (by show a + t.val + l = t.val + p; omega)).symm
  · refine (pad_apply_of_not_inside _ _ _ _ w hp hu (ix3 b t d) (1 : Fin 3) ?_).trans ?_
    · intro hin
      have h3 : (t.val - 0) / (0 + 1) < n := hin.2.2
      simp at h3; omega
    · exact (lagAt_of_no_row _ N _ p l t.val (by omega)).symm

/-- The first rows of every matrix of a stack, padded in front with `a` rows of the fill value. -/
theorem pad_low_slice_apply {B N D n a : Nat} (hN : a + n = N)
    (X : (⟨3, ![B, N, D]⟩ : Shape).Idx → α) {u : Shape} (w : u.Idx → α) (hu : 0 < u.numel)
    (hs : (⟨3, ![B, N, D]⟩ : Shape).Slices ![0, 0, 0] ⟨3, ![B, n, D]⟩)
    (hp : (⟨3, ![B, n, D]⟩ : Shape).Pads ![0, a, 0] ![0, 0, 0] ![0, 0, 0] ⟨3, ![B, N, D]⟩)
    (p l : Nat) (hl : p + a = l) (b : Fin B) (t : Fin N) (d : Fin D) :
    pad ⟨3, ![B, N, D]⟩ ![0, a, 0] ![0, 0, 0] ![0, 0, 0] (extractStridedSlice ⟨3, ![B, n, D]⟩ ![0, 0, 0] X hs) w hp hu (ix3 b t d)
      = lagAt (w (Shape.Idx.first hu)) N (fun r => X (ix3 b r d)) p l t.val := by
  have htN : t.val < N := t.isLt
  by_cases ht : a ≤ t.val
  · have htn : t.val - a < n := by omega
    refine (pad_apply_of_inside _ _ _ _ w hp hu (ix3 b t d) (ix3 b (⟨t.val - a, htn⟩ : Fin n) d) ?_).trans ?_
    · intro ax; match ax with
      | ⟨0, _⟩ => show b.val = 0 + b.val * (0 + 1); omega
      | ⟨1, _⟩ => show t.val = a + (t.val - a) * (0 + 1); omega
      | ⟨2, _⟩ => show d.val = 0 + d.val * (0 + 1); omega
    · rw [slice3_axis1_apply 0 X hs b (⟨t.val - a, htn⟩ : Fin n) d (⟨t.val - a, by omega⟩ : Fin N) (by show t.val - a = 0 + (t.val - a); omega)]
      exact (lagAt_of_row _ N (fun r => X (ix3 b r d)) p l t.val ⟨t.val - a, by omega⟩ (by show t.val - a + l = t.val + p; omega)).symm
  · refine (pad_apply_of_not_inside _ _ _ _ w hp hu (ix3 b t d) (1 : Fin 3) ?_).trans ?_
    · intro hin
      have h1 : a ≤ t.val := hin.1
      exact ht h1
    · exact (lagAt_of_no_row _ N _ p l t.val (by omega)).symm

/-! ## Same-shaped pieces side by side along the columns -/

/-- `K` pieces `[N, D]` set side by side, read at `(t, c)`: piece `c / D` at `(t, c % D)`. -/
theorem concat_cols_apply {N D K C : Nat} (hD : 0 < D) (f : Fin K → ((⟨2, ![N, D]⟩ : Shape).Idx → α))
    (hc : Shape.Concatenates ((List.ofFn fun n : Fin K => ((⟨⟨2, ![N, D]⟩, f n⟩ : (s : Shape) × (s.Idx → α)))).map (·.1)) ⟨2, ![N, C]⟩ 1)
    (t : Fin N) (c : Fin C) (hq : c.val / D < K) :
    concatenate ⟨2, ![N, C]⟩ 1 (List.ofFn fun n : Fin K => ((⟨⟨2, ![N, D]⟩, f n⟩ : (s : Shape) × (s.Idx → α)))) hc (ix2 t c)
      = f ⟨c.val / D, hq⟩ (ix2 t (⟨c.val % D, Nat.mod_lt _ hD⟩ : Fin D)) := by
  refine concatenate_ofFn_apply (t := ⟨2, ![N, C]⟩) (s₁ := ⟨2, ![N, D]⟩) (1 : Fin 2) f hc rfl D rfl (ix2 t c) ⟨c.val / D, hq⟩ rfl
    (ix2 t (⟨c.val % D, Nat.mod_lt _ hD⟩ : Fin D)) rfl ?_
  intro b hb; match b with | ⟨0, _⟩ => rfl | ⟨1, _⟩ => exact absurd rfl hb

end LagRows
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«100027_j36764920054343_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«100027_j36764920054343_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.LagSpec.lean ====
/-
  The layer both programs compute: a linear map of time-lagged features.

  From a stack `x` of 16 sequences of 2048 rows of 64 entries, row `t` gets 51 * 64 = 3264 features: feature
  `k = 64 l + d` is entry `d` of row `t + 10 - l` (the row `l - 10` steps earlier), and zero where the sequence
  has no such row. The output row is the weight matrix `W` (128 by 3264) applied to the features, plus a bias:
  `out (b, t, o) = (∑ k, lagged (b, t, k) * W (o, k)) + bias o`.
  One program takes the sum over `k` whole, the other a block of consecutive `k` at a time into a running total;
  `psum n` is the total of the first `n` terms, and a block of `m` more terms takes `psum n` to `psum (n + m)` —
  addition on the extended reals is commutative and associative, which is all this uses.
-/
import Mathlib.Algebra.BigOperators.Fin
import Mathlib.Algebra.BigOperators.Intervals
import proofs.«100027_j36764920054343_1_alg».proof.Proof.LibLagRows

noncomputable section

namespace Cert.LagSpec

open Idealize.ShloMosaic Idealize.ShloMosaic.ValueIdx LagRows

/-- Feature `k` of row `t` of sequence `b`. -/
def lagged (x : (⟨3, ![16, 2048, 64]⟩ : Shape).Idx → EReal) (b : Fin 16) (t : Fin 2048) (k : ℕ) : EReal :=
  lagAt 0 2048 (fun r => x (ix3 b r (⟨k % 64, Nat.mod_lt _ (by decide)⟩ : Fin 64))) 10 (k / 64) t.val

/-- Term `k` of output entry `(b, t, o)`: the feature times its weight (zero past the last feature). -/
def term (x : (⟨3, ![16, 2048, 64]⟩ : Shape).Idx → EReal) (W : (⟨2, ![128, 3264]⟩ : Shape).Idx → EReal)
    (b : Fin 16) (t : Fin 2048) (o : Fin 128) (k : ℕ) : EReal :=
  if h : k < 3264 then lagged x b t k * W (ix2 o (⟨k, h⟩ : Fin 3264)) else 0

/-- The layer's output. -/
def out (x : (⟨3, ![16, 2048, 64]⟩ : Shape).Idx → EReal) (W : (⟨2, ![128, 3264]⟩ : Shape).Idx → EReal)
    (bias : (⟨1, ![128]⟩ : Shape).Idx → EReal) : (⟨3, ![16, 2048, 128]⟩ : Shape).Idx → EReal :=
  fun i => (∑ k : Fin 3264, lagged x (i 0) (i 1) k.val * W (ix2 (i 2) k)) + bias (ix1 (i 2))

/-- The total of the first `n` terms. -/
def psum (x : (⟨3, ![16, 2048, 64]⟩ : Shape).Idx → EReal) (W : (⟨2, ![128, 3264]⟩ : Shape).Idx → EReal)
    (b : Fin 16) (t : Fin 2048) (o : Fin 128) (n : ℕ) : EReal :=
  ∑ k ∈ Finset.range n, term x W b t o k

variable (x : (⟨3, ![16, 2048, 64]⟩ : Shape).Idx → EReal) (W : (⟨2, ![128, 3264]⟩ : Shape).Idx → EReal)
  (bias : (⟨1, ![128]⟩ : Shape).Idx → EReal) (b : Fin 16) (t : Fin 2048) (o : Fin 128)

theorem psum_zero : psum x W b t o 0 = 0 := by
  unfold psum; exact Finset.sum_range_zero _

/-- A block of `m` further terms. -/
theorem psum_add (n m : ℕ) :
    psum x W b t o (n + m) = psum x W b t o n + ∑ c : Fin m, term x W b t o (n + c.val) := by
  unfold psum
  rw [Finset.sum_range_add, Fin.sum_univ_eq_sum_range (fun c => term x W b t o (n + c)) m]

theorem term_of_lt (k : ℕ) (h : k < 3264) :
    term x W b t o k = lagged x b t k * W (ix2 o (⟨k, h⟩ : Fin 3264)) := by
  unfold term; rw [dif_pos h]

/-- The output entry is the total of all 3264 terms, plus the bias. -/
theorem out_eq_psum : out x W bias (ix3 b t o) = psum x W b t o 3264 + bias (ix1 o) := by
  unfold out psum
  rw [← Fin.sum_univ_eq_sum_range (fun k => term x W b t o k) 3264]
  refine congrArg (· + bias (ix1 o)) (Finset.sum_congr rfl fun k _ => ?_)
  exact (term_of_lt x W b t o k.val k.isLt).symm

end Cert.LagSpec

end
-- ==== Proof.LagGroup.lean ====
/-
  One block of the lagged linear map: the steps a program takes when it sums the 3264 terms of an output entry
  a block of consecutive lags at a time.

  A block of `K` consecutive lags `l0, l0 + 1, …` of a `[2048, 64]` matrix `v`, set side by side, is a
  `[2048, 64 K]` matrix whose entry `(t, c)` is lag `l0 + c / 64` of column `c % 64` (`comb_apply`). Its product
  with `64 K` rows of the weights, added to a running total, is one step (`acc_step`: the total plus the sum over
  the block's columns). When the matrix is sequence `b` of the stack, the running total is `psum` of the first
  `64 l0` terms and the rows of the weights are rows `64 l0, …` of the transposed weight matrix, the step's result is
  `psum` of the first `64 l0 + 64 K` terms (`group_psum`).
-/
import proofs.«100027_j36764920054343_1_alg».proof.Proof.LibLagRows
import proofs.«100027_j36764920054343_1_alg».proof.Proof.LibPlainDot
import proofs.«100027_j36764920054343_1_alg».proof.Proof.LagSpec

noncomputable section

namespace Cert.LagGroup

open Idealize.ShloMosaic Idealize.ShloMosaic.ValueIdx LagRows Cert.DenseLayer Cert.LagSpec

/-- A product into the zero accumulator added to a running total, read at `(t, o)`: the total there plus the sum
    over the contracted axis. (The two shape casts are of a shape to itself.) -/
theorem acc_step {N K M : ℕ} (d : DotDims ⟨2, ![N, K]⟩ ⟨2, ![K, M]⟩ ⟨2, ![N, M]⟩) (hd : PlainDot d)
    {φ₁ φ₂ : FTy} (comb : FVec Ideal ⟨2, ![N, K]⟩ φ₁) (w : FVec Ideal ⟨2, ![K, M]⟩ φ₂) (acc : FVec Ideal ⟨2, ![N, M]⟩ .f32)
    (h1 : (⟨2, ![K, M]⟩ : Shape).ShapeCasts ⟨2, ![K, M]⟩) (h2 : (⟨2, ![N, M]⟩ : Shape).ShapeCasts ⟨2, ![N, M]⟩)
    (t : Fin N) (o : Fin M) :
    shapeCast ⟨2, ![N, M]⟩ (addf acc (matmul d none comb (shapeCast ⟨2, ![K, M]⟩ w h1)
        (constant ⟨2, ![N, M]⟩ .f32 0x00000000#32))) h2 (ix2 t o)
      = acc (ix2 t o) + ∑ c : Fin K, comb (ix2 t c) * w (ix2 c o) := by
  rw [shapeCast_self, shapeCast_self, addf_apply]
  exact congrArg (acc (ix2 t o) + ·) (matmul_zero_apply hd none comb w (ix2 t o))

/-- `K` consecutive lags of `v` side by side, read at `(t, c)`. -/
theorem comb_apply {K C : ℕ} (v : (⟨2, ![2048, 64]⟩ : Shape).Idx → EReal) (l0 : ℕ)
    (q : Fin K → ((⟨2, ![2048, 64]⟩ : Shape).Idx → EReal))
    (hq : ∀ (j : Fin K) (t : Fin 2048) (d : Fin 64), q j (ix2 t d) = lagAt 0 2048 (fun r => v (ix2 r d)) 10 (l0 + j.val) t.val)
    (hc : Shape.Concatenates ((List.ofFn fun n : Fin K => ((⟨⟨2, ![2048, 64]⟩, q n⟩ : (s : Shape) × (s.Idx → EReal)))).map (·.1)) ⟨2, ![2048, C]⟩ 1)
    (hC : C = 64 * K) (t : Fin 2048) (c : Fin C) :
    concatenate ⟨2, ![2048, C]⟩ 1 (List.ofFn fun n : Fin K => ((⟨⟨2, ![2048, 64]⟩, q n⟩ : (s : Shape) × (s.Idx → EReal)))) hc (ix2 t c)
      = lagAt 0 2048 (fun r => v (ix2 r (⟨c.val % 64, Nat.mod_lt _ (by decide)⟩ : Fin 64))) 10 (l0 + c.val / 64) t.val := by
  have hcK : c.val / 64 < K := by have := c.isLt; omega
  rw [concat_cols_apply (by decide) q hc t c hcK]
  exact hq ⟨c.val / 64, hcK⟩ t _

/-- Feature `k` by its lag index and its column. -/
theorem lagged_eq (x : (⟨3, ![16, 2048, 64]⟩ : Shape).Idx → EReal) (b : Fin 16) (t : Fin 2048) (k l : ℕ) (d : Fin 64)
    (hl : l = k / 64) (hd : d.val = k % 64) :
    lagged x b t k = lagAt 0 2048 (fun r => x (ix3 b r d)) 10 l t.val := by
  subst hl
  have e : d = (⟨k % 64, Nat.mod_lt _ (by decide)⟩ : Fin 64) := Fin.ext hd
  subst e
  rfl

/-- One block: the running total of the first `64 l0` terms, plus the block's sum, is the total of the first
    `64 l0 + C` terms. -/
theorem group_psum (x : (⟨3, ![16, 2048, 64]⟩ : Shape).Idx → EReal) (W : (⟨2, ![128, 3264]⟩ : Shape).Idx → EReal)
    (b : Fin 16) (t : Fin 2048) (o : Fin 128)
    (v : (⟨2, ![2048, 64]⟩ : Shape).Idx → EReal) (hv : ∀ (r : Fin 2048) (d : Fin 64), v (ix2 r d) = x (ix3 b r d))
    (l0 C : ℕ) (hn : 64 * l0 + C ≤ 3264)
    (comb : (⟨2, ![2048, C]⟩ : Shape).Idx → EReal)
    (hcomb : ∀ c : Fin C, comb (ix2 t c)
      = lagAt 0 2048 (fun r => v (ix2 r (⟨c.val % 64, Nat.mod_lt _ (by decide)⟩ : Fin 64))) 10 (l0 + c.val / 64) t.val)
    (w : (⟨2, ![C, 128]⟩ : Shape).Idx → EReal)
    (hw : ∀ c : Fin C, w (ix2 c o) = W (ix2 o (⟨64 * l0 + c.val, by have := c.isLt; omega⟩ : Fin 3264)))
    (a : EReal) (ha : a = psum x W b t o (64 * l0)) :
    a + ∑ c : Fin C, comb (ix2 t c) * w (ix2 c o) = psum x W b t o (64 * l0 + C) := by
  rw [psum_add, ha]
  refine congrArg (psum x W b t o (64 * l0) + ·) (Finset.sum_congr rfl fun c _ => ?_)
  have hlt : 64 * l0 + c.val < 3264 := by have := c.isLt; omega
  rw [hcomb c, hw c, term_of_lt x W b t o _ hlt,
    lagged_eq x b t (64 * l0 + c.val) (l0 + c.val / 64) (⟨c.val % 64, Nat.mod_lt _ (by decide)⟩ : Fin 64) (by omega) (by show c.val % 64 = (64 * l0 + c.val) % 64; omega)]
  have hfun : (fun r : Fin 2048 => v (ix2 r (⟨c.val % 64, Nat.mod_lt _ (by decide)⟩ : Fin 64)))
      = fun r => x (ix3 b r (⟨c.val % 64, Nat.mod_lt _ (by decide)⟩ : Fin 64)) := funext fun r => hv r _
  rw [hfun]

end Cert.LagGroup

end
-- ==== Proof.KernelGroups.lean ====
/-
  The kernel's running totals at the ideal values: the shared facts, and the first and third blocks.

  The sequence's block, as a [2048, 64] matrix `v`, is sequence `b` of the stack `X`, and the staged weights are
  the transposed weight matrix: `x1 (k, o) = W (o, k)`. A block of the body sets four consecutive lags of `v` side by
  side — a lag below 10 is the rows from `10 - l` on followed by zero rows, lag 10 is `v` itself, a lag above 10 is
  `l - 10` zero rows followed by the first rows of `v` — multiplies by the matching 256 rows of the staged weights and
  adds the product to the total before it. So if the total before block `g` is the sum of the first `256 (g - 1)` terms
  of the output entry `(b, t, o)`, the total after it is the sum of the first `256 g`. Block 1 has four lags below 10;
  block 3 has lags 8, 9, 10 and 11: between them every way a lagged copy is spelt.
-/
import proofs.«100027_j36764920054343_1_alg».proof.Proof.KernelPiece
import proofs.«100027_j36764920054343_1_alg».proof.Proof.LagGroup

set_option maxRecDepth 16384

noncomputable section

namespace Cert.KernelIdeal.LagValue

open Cert.KernelIdeal Cert.KernelIdeal.Gen Idealize.ShloMosaic Idealize.ShloMosaic.TcCoe Idealize.ShloMosaic.ValueIdx Idealize.SL.Sem
open LagRows Cert.LagGroup Cert.DenseLayer Cert.LagSpec

/-- The zero pattern of the narrow float format denotes zero. -/
theorem zbf : (Scalar.ofBits (F := Ideal) .bf16 0x0000#16 : Ideal .bf16) = 0 := by
  simp [Scalar.ofBits, Ideal.ofBits, Ideal.ieee]

/-- Rows `off, off + 1, …` of the staged weights, read at `(c, o)`. -/
theorem ld_rows_apply {n : ℕ} (x1 : Vec Ideal S3264x128 .bf16) (off : ℕ)
    (inb : ∀ a, (![off, 0] : Fin 2 → ℕ) a + (![n, 128] : Fin 2 → ℕ) a ≤ S3264x128.size a)
    (c : Fin n) (o : Fin 128) (k : Fin 3264) (hk : k.val = off + c.val) :
    View.ld x1 (Rect.unit (s := S3264x128) ![off, 0] ![n, 128] inb) (ix2 c o) = x1 (ix2 k o) := by
  show x1 _ = x1 _
  congr 1
  funext a
  apply Fin.ext
  match a with
  | ⟨0, _⟩ => show off + 1 * c.val = k.val; omega
  | ⟨1, _⟩ => show 0 + 1 * o.val = o.val; omega

variable (X : (⟨3, ![16, 2048, 64]⟩ : Shape).Idx → EReal) (W : (⟨2, ![128, 3264]⟩ : Shape).Idx → EReal) (b : Fin 16)
  (x0 : Vec Ideal S1x2048x64 .bf16) (x1 : Vec Ideal S3264x128 .bf16)
  (hx : ∀ (r : Fin 2048) (d : Fin 64), k0_pay3 (F := Ideal) x0 (ix2 r d) = X (ix3 b r d))
  (hw : ∀ (k : Fin 3264) (o : Fin 128), x1 (ix2 k o) = W (ix2 o k))

/-- Before the first block the total is zero. -/
theorem acc0_eq (t : Fin 2048) (o : Fin 128) : acc0 (F := Ideal) (ix2 t o) = psum X W b t o 0 := by
  rw [psum_zero]
  unfold acc0 k0_pay4
  simp [Scalar.ofBits, Ideal.ofBits, Ideal.ieee, shapeCast_self, broadcast]

include hx hw in
/-- Block 1 (lags 0–3, each moved towards the start): from the first 0 terms to the first 256. -/
theorem block1 (t : Fin 2048) (o : Fin 128) (hprev : acc0 (F := Ideal) (ix2 t o) = psum X W b t o 0) :
    acc1 (F := Ideal) x0 x1 (ix2 t o) = psum X W b t o 256 := by
  unfold acc1 k0_pay5
  refine (acc_step _ (plainDot_of_axes _ rfl rfl rfl rfl rfl rfl) _ _ _ _ _ t o).trans ?_
  refine group_psum X W b t o (k0_pay3 (F := Ideal) x0) hx 0 256 (by norm_num) _ (fun c => ?_) _ (fun c => ?_) _ hprev
  · refine comb_apply (K := 4) (k0_pay3 (F := Ideal) x0) 0 ![_, _, _, _] (fun j t d => ?_) _ rfl t c
    fin_cases j
    · refine (concat_slice_fill_apply (N := 2048) (n := 2038) (a := 10) rfl _ _ slices_S2048x64_o10_0_S2038x64 concatenates_S2038x64_S10x64_S2048x64_d0 10 0 rfl t d).trans ?_
      rw [zbf]; rfl
    · refine (concat_slice_fill_apply (N := 2048) (n := 2039) (a := 9) rfl _ _ slices_S2048x64_o9_0_S2039x64 concatenates_S2039x64_S9x64_S2048x64_d0 10 1 rfl t d).trans ?_
      rw [zbf]; rfl
    · refine (concat_slice_fill_apply (N := 2048) (n := 2040) (a := 8) rfl _ _ slices_S2048x64_o8_0_S2040x64 concatenates_S2040x64_S8x64_S2048x64_d0 10 2 rfl t d).trans ?_
      rw [zbf]; rfl
    · refine (concat_slice_fill_apply (N := 2048) (n := 2041) (a := 7) rfl _ _ slices_S2048x64_o7_0_S2041x64 concatenates_S2041x64_S7x64_S2048x64_d0 10 3 rfl t d).trans ?_
      rw [zbf]; rfl
  · exact (ld_rows_apply x1 0 _ c o ⟨64 * 0 + c.val, by have := c.isLt; omega⟩ (by show 64 * 0 + c.val = 0 + c.val; omega)).trans (hw _ o)

include hx hw in
/-- Block 3 (lags 8 and 9 moved towards the start, lag 10 unmoved, lag 11 moved towards the end): from the first
    512 terms to the first 768. -/
theorem block3 (t : Fin 2048) (o : Fin 128) (hprev : acc2 (F := Ideal) x0 x1 (ix2 t o) = psum X W b t o 512) :
    acc3 (F := Ideal) x0 x1 (ix2 t o) = psum X W b t o 768 := by
  unfold acc3 k0_pay11
  refine (acc_step _ (plainDot_of_axes _ rfl rfl rfl rfl rfl rfl) _ _ _ _ _ t o).trans ?_
  refine group_psum X W b t o (k0_pay3 (F := Ideal) x0) hx 8 256 (by norm_num) _ (fun c => ?_) _ (fun c => ?_) _ hprev
  · refine comb_apply (K := 4) (k0_pay3 (F := Ideal) x0) 8 ![_, _, _, _] (fun j t d => ?_) _ rfl t c
    fin_cases j
    · refine (concat_slice_fill_apply (N := 2048) (n := 2046) (a := 2) rfl _ _ slices_S2048x64_o2_0_S2046x64 concatenates_S2046x64_S2x64_S2048x64_d0 10 8 rfl t d).trans ?_
      rw [zbf]; rfl
    · refine (concat_slice_fill_apply (N := 2048) (n := 2047) (a := 1) rfl _ _ slices_S2048x64_o1_0_S2047x64 concatenates_S2047x64_S1x64_S2048x64_d0 10 9 rfl t d).trans ?_
      rw [zbf]; rfl
    · exact (lagAt_of_row 0 2048 (fun r => k0_pay3 (F := Ideal) x0 (ix2 r d)) 10 10 t.val t rfl).symm
    · refine (concat_fill_slice_apply (N := 2048) (n := 2047) (a := 1) rfl _ _ slices_S2048x64_o0_0_S2047x64 concatenates_S1x64_S2047x64_S2048x64_d0 10 11 rfl t d).trans ?_
      rw [zbf]; rfl
  · exact (ld_rows_apply x1 512 _ c o ⟨64 * 8 + c.val, by have := c.isLt; omega⟩ (by show 64 * 8 + c.val = 512 + c.val; omega)).trans (hw _ o)

end Cert.KernelIdeal.LagValue

end
-- ==== Proof.KernelGroupsLaid.lean ====
/-
  The other eleven blocks of the kernel's running total: block `g` takes the total of the first `256 (g - 1)` terms of an
  output entry to the total of the first `256 g` (the last, of three lags, to all 3264). Each is block 3's argument at
  its own lags: a lag below 10 the rows from `10 - l` on followed by zero rows, a lag above 10 `l - 10` zero rows
  followed by the first rows.
-/
import proofs.«100027_j36764920054343_1_alg».proof.Proof.KernelGroups

set_option maxRecDepth 16384

noncomputable section

namespace Cert.KernelIdeal.LagValue

open Cert.KernelIdeal Cert.KernelIdeal.Gen Idealize.ShloMosaic Idealize.ShloMosaic.TcCoe Idealize.ShloMosaic.ValueIdx Idealize.SL.Sem
open LagRows Cert.LagGroup Cert.DenseLayer Cert.LagSpec

variable (X : (⟨3, ![16, 2048, 64]⟩ : Shape).Idx → EReal) (W : (⟨2, ![128, 3264]⟩ : Shape).Idx → EReal) (b : Fin 16)
  (x0 : Vec Ideal S1x2048x64 .bf16) (x1 : Vec Ideal S3264x128 .bf16)
  (hx : ∀ (r : Fin 2048) (d : Fin 64), k0_pay3 (F := Ideal) x0 (ix2 r d) = X (ix3 b r d))
  (hw : ∀ (k : Fin 3264) (o : Fin 128), x1 (ix2 k o) = W (ix2 o k))

include hx hw in
/-- Block 2 (lags 4–7): from the first 256 terms to the first 512. -/
theorem block2 (t : Fin 2048) (o : Fin 128) (hprev : acc1 (F := Ideal) x0 x1 (ix2 t o) = psum X W b t o 256) :
    acc2 (F := Ideal) x0 x1 (ix2 t o) = psum X W b t o 512 := by
  unfold acc2 k0_pay10 k0_pay6 k0_pay7 k0_pay8 k0_pay9
  refine (acc_step _ (plainDot_of_axes _ rfl rfl rfl rfl rfl rfl) _ _ _ _ _ t o).trans ?_
  refine group_psum X W b t o (k0_pay3 (F := Ideal) x0) hx 4 256 (by norm_num) _ (fun c => ?_) _ (fun c => ?_) _ hprev
  · refine comb_apply (K := 4) (k0_pay3 (F := Ideal) x0) 4 ![_, _, _, _] (fun j t d => ?_) _ rfl t c
    fin_cases j
    · refine (concat_slice_fill_apply (N := 2048) (n := 2042) (a := 6) rfl _ _ slices_S2048x64_o6_0_S2042x64 concatenates_S2042x64_S6x64_S2048x64_d0 10 4 rfl t d).trans ?_
      rw [zbf]; rfl
    · refine (concat_slice_fill_apply (N := 2048) (n := 2043) (a := 5) rfl _ _ slices_S2048x64_o5_0_S2043x64 concatenates_S2043x64_S5x64_S2048x64_d0 10 5 rfl t d).trans ?_
      rw [zbf]; rfl
    · refine (concat_slice_fill_apply (N := 2048) (n := 2044) (a := 4) rfl _ _ slices_S2048x64_o4_0_S2044x64 concatenates_S2044x64_S4x64_S2048x64_d0 10 6 rfl t d).trans ?_
      rw [zbf]; rfl
    · refine (concat_slice_fill_apply (N := 2048) (n := 2045) (a := 3) rfl _ _ slices_S2048x64_o3_0_S2045x64 concatenates_S2045x64_S3x64_S2048x64_d0 10 7 rfl t d).trans ?_
      rw [zbf]; rfl
  · exact (ld_rows_apply x1 256 _ c o ⟨64 * 4 + c.val, by have := c.isLt; omega⟩ (by show 64 * 4 + c.val = 256 + c.val; omega)).trans (hw _ o)

include hx hw in
/-- Block 4 (lags 12–15): from the first 768 terms to the first 1024. -/
theorem block4 (t : Fin 2048) (o : Fin 128) (hprev : acc3 (F := Ideal) x0 x1 (ix2 t o) = psum X W b t o 768) :
    acc4 (F := Ideal) x0 x1 (ix2 t o) = psum X W b t o 1024 := by
  unfold acc4 k0_pay16 k0_pay12 k0_pay13 k0_pay14 k0_pay15
  refine (acc_step _ (plainDot_of_axes _ rfl rfl rfl rfl rfl rfl) _ _ _ _ _ t o).trans ?_
  refine group_psum X W b t o (k0_pay3 (F := Ideal) x0) hx 12 256 (by norm_num) _ (fun c => ?_) _ (fun c => ?_) _ hprev
  · refine comb_apply (K := 4) (k0_pay3 (F := Ideal) x0) 12 ![_, _, _, _] (fun j t d => ?_) _ rfl t c
    fin_cases j
    · refine (concat_fill_slice_apply (N := 2048) (n := 2046) (a := 2) rfl _ _ slices_S2048x64_o0_0_S2046x64 concatenates_S2x64_S2046x64_S2048x64_d0 10 12 rfl t d).trans ?_
      rw [zbf]; rfl
    · refine (concat_fill_slice_apply (N := 2048) (n := 2045) (a := 3) rfl _ _ slices_S2048x64_o0_0_S2045x64 concatenates_S3x64_S2045x64_S2048x64_d0 10 13 rfl t d).trans ?_
      rw [zbf]; rfl
    · refine (concat_fill_slice_apply (N := 2048) (n := 2044) (a := 4) rfl _ _ slices_S2048x64_o0_0_S2044x64 concatenates_S4x64_S2044x64_S2048x64_d0 10 14 rfl t d).trans ?_
      rw [zbf]; rfl
    · refine (concat_fill_slice_apply (N := 2048) (n := 2043) (a := 5) rfl _ _ slices_S2048x64_o0_0_S2043x64 concatenates_S5x64_S2043x64_S2048x64_d0 10 15 rfl t d).trans ?_
      rw [zbf]; rfl
  · exact (ld_rows_apply x1 768 _ c o ⟨64 * 12 + c.val, by have := c.isLt; omega⟩ (by show 64 * 12 + c.val = 768 + c.val; omega)).trans (hw _ o)

include hx hw in
/-- Block 5 (lags 16–19): from the first 1024 terms to the first 1280. -/
theorem block5 (t : Fin 2048) (o : Fin 128) (hprev : acc4 (F := Ideal) x0 x1 (ix2 t o) = psum X W b t o 1024) :
    acc5 (F := Ideal) x0 x1 (ix2 t o) = psum X W b t o 1280 := by
  unfold acc5 k0_pay17
  refine (acc_step _ (plainDot_of_axes _ rfl rfl rfl rfl rfl rfl) _ _ _ _ _ t o).trans ?_
  refine group_psum X W b t o (k0_pay3 (F := Ideal) x0) hx 16 256 (by norm_num) _ (fun c => ?_) _ (fun c => ?_) _ hprev
  · refine comb_apply (K := 4) (k0_pay3 (F := Ideal) x0) 16 ![_, _, _, _] (fun j t d => ?_) _ rfl t c
    fin_cases j
    · refine (concat_fill_slice_apply (N := 2048) (n := 2042) (a := 6) rfl _ _ slices_S2048x64_o0_0_S2042x64 concatenates_S6x64_S2042x64_S2048x64_d0 10 16 rfl t d).trans ?_
      rw [zbf]; rfl
    · refine (concat_fill_slice_apply (N := 2048) (n := 2041) (a := 7) rfl _ _ slices_S2048x64_o0_0_S2041x64 concatenates_S7x64_S2041x64_S2048x64_d0 10 17 rfl t d).trans ?_
      rw [zbf]; rfl
    · refine (concat_fill_slice_apply (N := 2048) (n := 2040) (a := 8) rfl _ _ slices_S2048x64_o0_0_S2040x64 concatenates_S8x64_S2040x64_S2048x64_d0 10 18 rfl t d).trans ?_
      rw [zbf]; rfl
    · refine (concat_fill_slice_apply (N := 2048) (n := 2039) (a := 9) rfl _ _ slices_S2048x64_o0_0_S2039x64 concatenates_S9x64_S2039x64_S2048x64_d0 10 19 rfl t d).trans ?_
      rw [zbf]; rfl
  · exact (ld_rows_apply x1 1024 _ c o ⟨64 * 16 + c.val, by have := c.isLt; omega⟩ (by show 64 * 16 + c.val = 1024 + c.val; omega)).trans (hw _ o)

include hx hw in
/-- Block 6 (lags 20–23): from the first 1280 terms to the first 1536. -/
theorem block6 (t : Fin 2048) (o : Fin 128) (hprev : acc5 (F := Ideal) x0 x1 (ix2 t o) = psum X W b t o 1280) :
    acc6 (F := Ideal) x0 x1 (ix2 t o) = psum X W b t o 1536 := by
  unfold acc6 k0_pay19 k0_pay18
  refine (acc_step _ (plainDot_of_axes _ rfl rfl rfl rfl rfl rfl) _ _ _ _ _ t o).trans ?_
  refine group_psum X W b t o (k0_pay3 (F := Ideal) x0) hx 20 256 (by norm_num) _ (fun c => ?_) _ (fun c => ?_) _ hprev
  · refine comb_apply (K := 4) (k0_pay3 (F := Ideal) x0) 20 ![_, _, _, _] (fun j t d => ?_) _ rfl t c
    fin_cases j
    · refine (concat_fill_slice_apply (N := 2048) (n := 2038) (a := 10) rfl _ _ slices_S2048x64_o0_0_S2038x64 concatenates_S10x64_S2038x64_S2048x64_d0 10 20 rfl t d).trans ?_
      rw [zbf]; rfl
    · refine (concat_fill_slice_apply (N := 2048) (n := 2037) (a := 11) rfl _ _ slices_S2048x64_o0_0_S2037x64 concatenates_S11x64_S2037x64_S2048x64_d0 10 21 rfl t d).trans ?_
      rw [zbf]; rfl
    · refine (concat_fill_slice_apply (N := 2048) (n := 2036) (a := 12) rfl _ _ slices_S2048x64_o0_0_S2036x64 concatenates_S12x64_S2036x64_S2048x64_d0 10 22 rfl t d).trans ?_
      rw [zbf]; rfl
    · refine (concat_fill_slice_apply (N := 2048) (n := 2035) (a := 13) rfl _ _ slices_S2048x64_o0_0_S2035x64 concatenates_S13x64_S2035x64_S2048x64_d0 10 23 rfl t d).trans ?_
      rw [zbf]; rfl
  · exact (ld_rows_apply x1 1280 _ c o ⟨64 * 20 + c.val, by have := c.isLt; omega⟩ (by show 64 * 20 + c.val = 1280 + c.val; omega)).trans (hw _ o)

include hx hw in
/-- Block 7 (lags 24–27): from the first 1536 terms to the first 1792. -/
theorem block7 (t : Fin 2048) (o : Fin 128) (hprev : acc6 (F := Ideal) x0 x1 (ix2 t o) = psum X W b t o 1536) :
    acc7 (F := Ideal) x0 x1 (ix2 t o) = psum X W b t o 1792 := by
  unfold acc7 k0_pay20
  refine (acc_step _ (plainDot_of_axes _ rfl rfl rfl rfl rfl rfl) _ _ _ _ _ t o).trans ?_
  refine group_psum X W b t o (k0_pay3 (F := Ideal) x0) hx 24 256 (by norm_num) _ (fun c => ?_) _ (fun c => ?_) _ hprev
  · refine comb_apply (K := 4) (k0_pay3 (F := Ideal) x0) 24 ![_, _, _, _] (fun j t d => ?_) _ rfl t c
    fin_cases j
    · refine (concat_fill_slice_apply (N := 2048) (n := 2034) (a := 14) rfl _ _ slices_S2048x64_o0_0_S2034x64 concatenates_S14x64_S2034x64_S2048x64_d0 10 24 rfl t d).trans ?_
      rw [zbf]; rfl
    · refine (concat_fill_slice_apply (N := 2048) (n := 2033) (a := 15) rfl _ _ slices_S2048x64_o0_0_S2033x64 concatenates_S15x64_S2033x64_S2048x64_d0 10 25 rfl t d).trans ?_
      rw [zbf]; rfl
    · refine (concat_fill_slice_apply (N := 2048) (n := 2032) (a := 16) rfl _ _ slices_S2048x64_o0_0_S2032x64 concatenates_S16x64_S2032x64_S2048x64_d0 10 26 rfl t d).trans ?_
      rw [zbf]; rfl
    · refine (concat_fill_slice_apply (N := 2048) (n := 2031) (a := 17) rfl _ _ slices_S2048x64_o0_0_S2031x64 concatenates_S17x64_S2031x64_S2048x64_d0 10 27 rfl t d).trans ?_
      rw [zbf]; rfl
  · exact (ld_rows_apply x1 1536 _ c o ⟨64 * 24 + c.val, by have := c.isLt; omega⟩ (by show 64 * 24 + c.val = 1536 + c.val; omega)).trans (hw _ o)

include hx hw in
/-- Block 8 (lags 28–31): from the first 1792 terms to the first 2048. -/
theorem block8 (t : Fin 2048) (o : Fin 128) (hprev : acc7 (F := Ideal) x0 x1 (ix2 t o) = psum X W b t o 1792) :
    acc8 (F := Ideal) x0 x1 (ix2 t o) = psum X W b t o 2048 := by
  unfold acc8 k0_pay21
  refine (acc_step _ (plainDot_of_axes _ rfl rfl rfl rfl rfl rfl) _ _ _ _ _ t o).trans ?_
  refine group_psum X W b t o (k0_pay3 (F := Ideal) x0) hx 28 256 (by norm_num) _ (fun c => ?_) _ (fun c => ?_) _ hprev
  · refine comb_apply (K := 4) (k0_pay3 (F := Ideal) x0) 28 ![_, _, _, _] (fun j t d => ?_) _ rfl t c
    fin_cases j
    · refine (concat_fill_slice_apply (N := 2048) (n := 2030) (a := 18) rfl _ _ slices_S2048x64_o0_0_S2030x64 concatenates_S18x64_S2030x64_S2048x64_d0 10 28 rfl t d).trans ?_
      rw [zbf]; rfl
    · refine (concat_fill_slice_apply (N := 2048) (n := 2029) (a := 19) rfl _ _ slices_S2048x64_o0_0_S2029x64 concatenates_S19x64_S2029x64_S2048x64_d0 10 29 rfl t d).trans ?_
      rw [zbf]; rfl
    · refine (concat_fill_slice_apply (N := 2048) (n := 2028) (a := 20) rfl _ _ slices_S2048x64_o0_0_S2028x64 concatenates_S20x64_S2028x64_S2048x64_d0 10 30 rfl t d).trans ?_
      rw [zbf]; rfl
    · refine (concat_fill_slice_apply (N := 2048) (n := 2027) (a := 21) rfl _ _ slices_S2048x64_o0_0_S2027x64 concatenates_S21x64_S2027x64_S2048x64_d0 10 31 rfl t d).trans ?_
      rw [zbf]; rfl
  · exact (ld_rows_apply x1 1792 _ c o ⟨64 * 28 + c.val, by have := c.isLt; omega⟩ (by show 64 * 28 + c.val = 1792 + c.val; omega)).trans (hw _ o)

include hx hw in
/-- Block 9 (lags 32–35): from the first 2048 terms to the first 2304. -/
theorem block9 (t : Fin 2048) (o : Fin 128) (hprev : acc8 (F := Ideal) x0 x1 (ix2 t o) = psum X W b t o 2048) :
    acc9 (F := Ideal) x0 x1 (ix2 t o) = psum X W b t o 2304 := by
  unfold acc9 k0_pay23 k0_pay22
  refine (acc_step _ (plainDot_of_axes _ rfl rfl rfl rfl rfl rfl) _ _ _ _ _ t o).trans ?_
  refine group_psum X W b t o (k0_pay3 (F := Ideal) x0) hx 32 256 (by norm_num) _ (fun c => ?_) _ (fun c => ?_) _ hprev
  · refine comb_apply (K := 4) (k0_pay3 (F := Ideal) x0) 32 ![_, _, _, _] (fun j t d => ?_) _ rfl t c
    fin_cases j
    · refine (concat_fill_slice_apply (N := 2048) (n := 2026) (a := 22) rfl _ _ slices_S2048x64_o0_0_S2026x64 concatenates_S22x64_S2026x64_S2048x64_d0 10 32 rfl t d).trans ?_
      rw [zbf]; rfl
    · refine (concat_fill_slice_apply (N := 2048) (n := 2025) (a := 23) rfl _ _ slices_S2048x64_o0_0_S2025x64 concatenates_S23x64_S2025x64_S2048x64_d0 10 33 rfl t d).trans ?_
      rw [zbf]; rfl
    · refine (concat_fill_slice_apply (N := 2048) (n := 2024) (a := 24) rfl _ _ slices_S2048x64_o0_0_S2024x64 concatenates_S24x64_S2024x64_S2048x64_d0 10 34 rfl t d).trans ?_
      rw [zbf]; rfl
    · refine (concat_fill_slice_apply (N := 2048) (n := 2023) (a := 25) rfl _ _ slices_S2048x64_o0_0_S2023x64 concatenates_S25x64_S2023x64_S2048x64_d0 10 35 rfl t d).trans ?_
      rw [zbf]; rfl
  · exact (ld_rows_apply x1 2048 _ c o ⟨64 * 32 + c.val, by have := c.isLt; omega⟩ (by show 64 * 32 + c.val = 2048 + c.val; omega)).trans (hw _ o)

include hx hw in
/-- Block 10 (lags 36–39): from the first 2304 terms to the first 2560. -/
theorem block10 (t : Fin 2048) (o : Fin 128) (hprev : acc9 (F := Ideal) x0 x1 (ix2 t o) = psum X W b t o 2304) :
    acc10 (F := Ideal) x0 x1 (ix2 t o) = psum X W b t o 2560 := by
  unfold acc10 k0_pay24
  refine (acc_step _ (plainDot_of_axes _ rfl rfl rfl rfl rfl rfl) _ _ _ _ _ t o).trans ?_
  refine group_psum X W b t o (k0_pay3 (F := Ideal) x0) hx 36 256 (by norm_num) _ (fun c => ?_) _ (fun c => ?_) _ hprev
  · refine comb_apply (K := 4) (k0_pay3 (F := Ideal) x0) 36 ![_, _, _, _] (fun j t d => ?_) _ rfl t c
    fin_cases j
    · refine (concat_fill_slice_apply (N := 2048) (n := 2022) (a := 26) rfl _ _ slices_S2048x64_o0_0_S2022x64 concatenates_S26x64_S2022x64_S2048x64_d0 10 36 rfl t d).trans ?_
      rw [zbf]; rfl
    · refine (concat_fill_slice_apply (N := 2048) (n := 2021) (a := 27) rfl _ _ slices_S2048x64_o0_0_S2021x64 concatenates_S27x64_S2021x64_S2048x64_d0 10 37 rfl t d).trans ?_
      rw [zbf]; rfl
    · refine (concat_fill_slice_apply (N := 2048) (n := 2020) (a := 28) rfl _ _ slices_S2048x64_o0_0_S2020x64 concatenates_S28x64_S2020x64_S2048x64_d0 10 38 rfl t d).trans ?_
      rw [zbf]; rfl
    · refine (concat_fill_slice_apply (N := 2048) (n := 2019) (a := 29) rfl _ _ slices_S2048x64_o0_0_S2019x64 concatenates_S29x64_S2019x64_S2048x64_d0 10 39 rfl t d).trans ?_
      rw [zbf]; rfl
  · exact (ld_rows_apply x1 2304 _ c o ⟨64 * 36 + c.val, by have := c.isLt; omega⟩ (by show 64 * 36 + c.val = 2304 + c.val; omega)).trans (hw _ o)

include hx hw in
/-- Block 11 (lags 40–43): from the first 2560 terms to the first 2816. -/
theorem block11 (t : Fin 2048) (o : Fin 128) (hprev : acc10 (F := Ideal) x0 x1 (ix2 t o) = psum X W b t o 2560) :
    acc11 (F := Ideal) x0 x1 (ix2 t o) = psum X W b t o 2816 := by
  unfold acc11 k0_pay26 k0_pay25
  refine (acc_step _ (plainDot_of_axes _ rfl rfl rfl rfl rfl rfl) _ _ _ _ _ t o).trans ?_
  refine group_psum X W b t o (k0_pay3 (F := Ideal) x0) hx 40 256 (by norm_num) _ (fun c => ?_) _ (fun c => ?_) _ hprev
  · refine comb_apply (K := 4) (k0_pay3 (F := Ideal) x0) 40 ![_, _, _, _] (fun j t d => ?_) _ rfl t c
    fin_cases j
    · refine (concat_fill_slice_apply (N := 2048) (n := 2018) (a := 30) rfl _ _ slices_S2048x64_o0_0_S2018x64 concatenates_S30x64_S2018x64_S2048x64_d0 10 40 rfl t d).trans ?_
      rw [zbf]; rfl
    · refine (concat_fill_slice_apply (N := 2048) (n := 2017) (a := 31) rfl _ _ slices_S2048x64_o0_0_S2017x64 concatenates_S31x64_S2017x64_S2048x64_d0 10 41 rfl t d).trans ?_
      rw [zbf]; rfl
    · refine (concat_fill_slice_apply (N := 2048) (n := 2016) (a := 32) rfl _ _ slices_S2048x64_o0_0_S2016x64 concatenates_S32x64_S2016x64_S2048x64_d0 10 42 rfl t d).trans ?_
      rw [zbf]; rfl
    · refine (concat_fill_slice_apply (N := 2048) (n := 2015) (a := 33) rfl _ _ slices_S2048x64_o0_0_S2015x64 concatenates_S33x64_S2015x64_S2048x64_d0 10 43 rfl t d).trans ?_
      rw [zbf]; rfl
  · exact (ld_rows_apply x1 2560 _ c o ⟨64 * 40 + c.val, by have := c.isLt; omega⟩ (by show 64 * 40 + c.val = 2560 + c.val; omega)).trans (hw _ o)

include hx hw in
/-- Block 12 (lags 44–47): from the first 2816 terms to the first 3072. -/
theorem block12 (t : Fin 2048) (o : Fin 128) (hprev : acc11 (F := Ideal) x0 x1 (ix2 t o) = psum X W b t o 2816) :
    acc12 (F := Ideal) x0 x1 (ix2 t o) = psum X W b t o 3072 := by
  unfold acc12 k0_pay27
  refine (acc_step _ (plainDot_of_axes _ rfl rfl rfl rfl rfl rfl) _ _ _ _ _ t o).trans ?_
  refine group_psum X W b t o (k0_pay3 (F := Ideal) x0) hx 44 256 (by norm_num) _ (fun c => ?_) _ (fun c => ?_) _ hprev
  · refine comb_apply (K := 4) (k0_pay3 (F := Ideal) x0) 44 ![_, _, _, _] (fun j t d => ?_) _ rfl t c
    fin_cases j
    · refine (concat_fill_slice_apply (N := 2048) (n := 2014) (a := 34) rfl _ _ slices_S2048x64_o0_0_S2014x64 concatenates_S34x64_S2014x64_S2048x64_d0 10 44 rfl t d).trans ?_
      rw [zbf]; rfl
    · refine (concat_fill_slice_apply (N := 2048) (n := 2013) (a := 35) rfl _ _ slices_S2048x64_o0_0_S2013x64 concatenates_S35x64_S2013x64_S2048x64_d0 10 45 rfl t d).trans ?_
      rw [zbf]; rfl
    · refine (concat_fill_slice_apply (N := 2048) (n := 2012) (a := 36) rfl _ _ slices_S2048x64_o0_0_S2012x64 concatenates_S36x64_S2012x64_S2048x64_d0 10 46 rfl t d).trans ?_
      rw [zbf]; rfl
    · refine (concat_fill_slice_apply (N := 2048) (n := 2011) (a := 37) rfl _ _ slices_S2048x64_o0_0_S2011x64 concatenates_S37x64_S2011x64_S2048x64_d0 10 47 rfl t d).trans ?_
      rw [zbf]; rfl
  · exact (ld_rows_apply x1 2816 _ c o ⟨64 * 44 + c.val, by have := c.isLt; omega⟩ (by show 64 * 44 + c.val = 2816 + c.val; omega)).trans (hw _ o)

include hx hw in
/-- Block 13 (lags 48–50): from the first 3072 terms to the first 3264. -/
theorem block13 (t : Fin 2048) (o : Fin 128) (hprev : acc12 (F := Ideal) x0 x1 (ix2 t o) = psum X W b t o 3072) :
    acc13 (F := Ideal) x0 x1 (ix2 t o) = psum X W b t o 3264 := by
  unfold acc13 k0_pay1 k0_pay28
  refine (acc_step _ (plainDot_of_axes _ rfl rfl rfl rfl rfl rfl) _ _ _ _ _ t o).trans ?_
  refine group_psum X W b t o (k0_pay3 (F := Ideal) x0) hx 48 192 (by norm_num) _ (fun c => ?_) _ (fun c => ?_) _ hprev
  · refine comb_apply (K := 3) (k0_pay3 (F := Ideal) x0) 48 ![_, _, _] (fun j t d => ?_) _ rfl t c
    fin_cases j
    · refine (concat_fill_slice_apply (N := 2048) (n := 2010) (a := 38) rfl _ _ slices_S2048x64_o0_0_S2010x64 concatenates_S38x64_S2010x64_S2048x64_d0 10 48 rfl t d).trans ?_
      rw [zbf]; rfl
    · refine (concat_fill_slice_apply (N := 2048) (n := 2009) (a := 39) rfl _ _ slices_S2048x64_o0_0_S2009x64 concatenates_S39x64_S2009x64_S2048x64_d0 10 49 rfl t d).trans ?_
      rw [zbf]; rfl
    · refine (concat_fill_slice_apply (N := 2048) (n := 2008) (a := 40) rfl _ _ slices_S2048x64_o0_0_S2008x64 concatenates_S40x64_S2008x64_S2048x64_d0 10 50 rfl t d).trans ?_
      rw [zbf]; rfl
  · exact (ld_rows_apply x1 3072 _ c o ⟨64 * 48 + c.val, by have := c.isLt; omega⟩ (by show 64 * 48 + c.val = 3072 + c.val; omega)).trans (hw _ o)

end Cert.KernelIdeal.LagValue

end
-- ==== Proof.KernelTotals.lean ====
/-
  What a grid point of the kernel writes, against the layer.

  The thirteen blocks in turn take the running total from zero to the sum of all 3264 terms of the output entry
  `(b, t, o)`; the block written out adds the bias row, broadcast over the 2048 rows, and is laid out as a
  [1, 2048, 128] block. So the written block at `(0, t, o)` is the layer's output at `(b, t, o)`.
-/
import proofs.«100027_j36764920054343_1_alg».proof.Proof.KernelGroupsLaid
import Idealize.ShloMosaic.Lib.ValueLayout

set_option maxRecDepth 16384

noncomputable section

namespace Cert.KernelIdeal.LagValue

open Cert.KernelIdeal Cert.KernelIdeal.Gen Idealize.ShloMosaic Idealize.ShloMosaic.TcCoe Idealize.ShloMosaic.ValueIdx Idealize.SL.Sem
open LagRows Cert.LagGroup Cert.DenseLayer Cert.LagSpec

variable (X : (⟨3, ![16, 2048, 64]⟩ : Shape).Idx → EReal) (W : (⟨2, ![128, 3264]⟩ : Shape).Idx → EReal) (b : Fin 16)
  (x0 : Vec Ideal S1x2048x64 .bf16) (x1 : Vec Ideal S3264x128 .bf16)
  (hx : ∀ (r : Fin 2048) (d : Fin 64), k0_pay3 (F := Ideal) x0 (ix2 r d) = X (ix3 b r d))
  (hw : ∀ (k : Fin 3264) (o : Fin 128), x1 (ix2 k o) = W (ix2 o k))

include hx hw in
/-- After the last block the running total is the sum of all 3264 terms. -/
theorem acc13_eq (t : Fin 2048) (o : Fin 128) : acc13 (F := Ideal) x0 x1 (ix2 t o) = psum X W b t o 3264 :=
  block13 X W b x0 x1 hx hw t o <| block12 X W b x0 x1 hx hw t o <| block11 X W b x0 x1 hx hw t o <|
  block10 X W b x0 x1 hx hw t o <| block9 X W b x0 x1 hx hw t o <| block8 X W b x0 x1 hx hw t o <|
  block7 X W b x0 x1 hx hw t o <| block6 X W b x0 x1 hx hw t o <| block5 X W b x0 x1 hx hw t o <|
  block4 X W b x0 x1 hx hw t o <| block3 X W b x0 x1 hx hw t o <| block2 X W b x0 x1 hx hw t o <|
  block1 X W b x0 x1 hx hw t o (acc0_eq X W b t o)

/-- The written block: the total plus the bias row over every row, as a [1, 2048, 128] block. -/
theorem pay2_apply (acc : Vec Ideal S2048x128 .f32) (x2 : Vec Ideal S128 .f32) (j0 : Fin 1) (t : Fin 2048) (o : Fin 128) :
    k0_pay2 (F := Ideal) acc x2 (ix3 j0 t o) = acc (ix2 t o) + x2 (ix1 o) := by
  unfold k0_pay2
  have e1 : (fun a : Fin 2 => (ix3 j0 t o) a.succ) = ix2 t o := by
    funext a; match a with | ⟨0, _⟩ => rfl | ⟨1, _⟩ => rfl
  have e2 : (fun a : Fin 1 => (ix2 (0 : Fin 1) o) a.succ) = ix1 o := by
    funext a; match a with | ⟨0, _⟩ => rfl
  refine (shapeCast_addUnit_apply (n := 2) ![2048, 128] _ shapeCasts_S2048x128_S1x2048x128 (ix3 j0 t o)).trans ?_
  rw [e1, addf_apply, broadcastTo_1b_ab_apply]
  refine congrArg (acc (ix2 t o) + ·) ?_
  refine (shapeCast_addUnit_apply (n := 1) ![128] x2 shapeCasts_S128_S1x128 (ix2 (0 : Fin 1) o)).trans ?_
  rw [e2]

include hx hw in
/-- What the point writes at `(0, t, o)` is the layer's output at `(b, t, o)`. -/
theorem point_value (bias : (⟨1, ![128]⟩ : Shape).Idx → EReal) (x2 : Vec Ideal S128 .f32)
    (hb : ∀ o : Fin 128, x2 (ix1 o) = bias (ix1 o)) (j0 : Fin 1) (t : Fin 2048) (o : Fin 128) :
    k0_pay2 (F := Ideal) (acc13 x0 x1) x2 (ix3 j0 t o) = out X W bias (ix3 b t o) := by
  rw [pay2_apply, acc13_eq X W b x0 x1 hx hw t o, hb o, out_eq_psum]

end Cert.KernelIdeal.LagValue

end
-- ==== Proof.KernelValue.lean ====
/-
  The kernel's result array after its run, at the ideal values: the layer's output of the three argument arrays.

  The region finds sequence array `x` and the transposed weights as the host operations before it leave them (a change
  of float format is the identity on ideal values; the transposed matrix at `(k, o)` is the weight at `(o, k)`), and the
  bias as launched. Grid point `t` stages sequence `t` whole, the weights whole and the bias whole, and writes back block
  `t` of the result: rows `(t, ·, ·)`. What it writes at `(0, r, o)` is the layer's output at `(t, r, o)`; the sixteen
  blocks cover the result array, index `i` lying in block `i 0`.
-/
import proofs.«100027_j36764920054343_1_alg».proof.Proof.KernelTotals
import Idealize.ShloMosaic.Lib.StableHlo.Run
import Idealize.ShloMosaic.Lib.Pipeline.Value

set_option maxRecDepth 16384

noncomputable section

namespace Cert.KernelIdeal.LagValue

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat)
open Cert.LagSpec

variable (m : (ℓ : Loc nD τ sig) → Buf (Elt Ideal) ℓ) (ρ : Dev nD → PrngReg)

/-- The layer's output of the argument arrays on core `c`. -/
abbrev G (c : Dev nD) : S16x2048x128.Idx → EReal := out (m ((c : Thread nD τ).loc main_arg0)) (m ((c : Thread nD τ).loc main_arg1)) (m ((c : Thread nD τ).loc main_arg2))

/-- The printed index maps, decided over the sixteen grid points. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0 :=
  (by decide +kernel : ∀ t : Fin grid0.N, _)

theorem t_lt (t : Fin cfg0.N) : t.val < 16 := Nat.lt_of_lt_of_eq t.isLt N_0

/-- The sequence array as the region finds it: the argument (the change of format is the identity). -/
theorem V_v0 (c : Dev nD) : (V m c main_v0 : S16x2048x64.Idx → EReal) = (m ((c : Thread nD τ).loc main_arg0)) := by
  dsimp only [Gen.V, Gen.hostOps0]; after_results; rfl

/-- The staged weights as the region finds them: the weight matrix transposed. -/
theorem V_v2 (c : Dev nD) : (V m c main_v2 : S3264x128.Idx → EReal)
    = transpose S3264x128 [1, 0] (m ((c : Thread nD τ).loc main_arg1)) transposes_S128x3264_S3264x128_1_0 := by
  dsimp only [Gen.V, Gen.hostOps0]; after_results; rfl

/-- Point `t`'s block of the sequence array, as a [2048, 64] matrix, is sequence `t`. -/
theorem x0_read (c : Dev nD) (t : Fin cfg0.N) (r : Fin 2048) (d : Fin 64) :
    k0_pay3 (F := Ideal) (iblk m c 0 t) (ix2 r d) = ((m ((c : Thread nD τ).loc main_arg0)) : S16x2048x64.Idx → EReal) (ix3 (⟨t.val, t_lt t⟩ : Fin 16) r d) := by
  obtain ⟨e0, e1, e2, -⟩ := idx_facts t
  unfold k0_pay3
  refine (shapeCast_dropUnit_apply (n := 2) ![2048, 64] _ shapeCasts_S1x2048x64_S2048x64 (ix2 r d)).trans ?_
  unfold iblk
  rw [View.read_apply]
  show V m c main_v0 _ = _
  rw [V_v0]
  congr 1
  funext a
  apply Fin.ext
  match a with
  | ⟨0, _⟩ => show win0_0.index t (0 : Fin 3) * 1 + 1 * 0 = t.val; rw [e0]; omega
  | ⟨1, _⟩ => show win0_0.index t (1 : Fin 3) * 2048 + 1 * r.val = r.val; rw [e1]; omega
  | ⟨2, _⟩ => show win0_0.index t (2 : Fin 3) * 64 + 1 * d.val = d.val; rw [e2]; omega

/-- The staged weights at `(k, o)` are the weight at `(o, k)`. -/
theorem x1_read (c : Dev nD) (t : Fin cfg0.N) (k : Fin 3264) (o : Fin 128) :
    (iblk m c 1 t : Vec Ideal S3264x128 .bf16) (ix2 k o) = ((m ((c : Thread nD τ).loc main_arg1)) : S128x3264.Idx → EReal) (ix2 o k) := by
  obtain ⟨-, -, -, e3, e4, -⟩ := idx_facts t
  unfold iblk
  rw [View.read_apply]
  show V m c main_v2 _ = _
  rw [V_v2]
  have he : ((cfg0.win 1).blk t).view.emb (ix2 k o) = ix2 k o := by
    funext a
    apply Fin.ext
    match a with
    | ⟨0, _⟩ => show win0_1.index t (0 : Fin 2) * 3264 + 1 * k.val = k.val; rw [e3]; omega
    | ⟨1, _⟩ => show win0_1.index t (1 : Fin 2) * 128 + 1 * o.val = o.val; rw [e4]; omega
  rw [he]
  exact transpose_ix2_apply _ transposes_S128x3264_S3264x128_1_0 k o

/-- The staged bias is the bias. -/
theorem x2_read (c : Dev nD) (t : Fin cfg0.N) (o : Fin 128) :
    (iblk m c 2 t : Vec Ideal S128 .f32) (ix1 o) = ((m ((c : Thread nD τ).loc main_arg2)) : S128.Idx → EReal) (ix1 o) := by
  obtain ⟨-, -, -, -, -, e5, -⟩ := idx_facts t
  unfold iblk
  rw [View.read_apply]
  show V m c main_arg2 _ = _
  rw [V_main_arg2]
  congr 1
  funext a
  apply Fin.ext
  match a with
  | ⟨0, _⟩ => show win0_2.index t (0 : Fin 1) * 128 + 1 * o.val = o.val; rw [e5]; omega

/-- What point `t` writes back is block `t` of the layer's output. -/
theorem flushed_eq (c : Dev nD) (t : Fin cfg0.N) :
    (dats m 0 c).flushed 3 t = ((cfg0.win 3).blk t).view.read (Elt Ideal) (G m c) := by
  obtain ⟨-, -, -, -, -, -, e6, e7, e8⟩ := idx_facts t
  rw [Cert.KernelIdeal.Value.flushed3_A, out_piece]
  funext j
  obtain ⟨j0, r, o, rfl⟩ : ∃ (j0 : Fin 1) (r : Fin 2048) (o : Fin 128), j = ix3 j0 r o := ⟨j 0, j 1, j 2, eq_ix3 j⟩
  rw [View.read_apply]
  show k0_pay2 (F := Ideal) (acc13 (iblk m c 0 t) (iblk m c 1 t)) (iblk m c 2 t) (ix3 j0 r o) = _
  refine (point_value (m ((c : Thread nD τ).loc main_arg0)) (m ((c : Thread nD τ).loc main_arg1)) (⟨t.val, t_lt t⟩ : Fin 16) (iblk m c 0 t) (iblk m c 1 t)
    (x0_read m c t) (x1_read m c t) (m ((c : Thread nD τ).loc main_arg2)) (iblk m c 2 t) (x2_read m c t) j0 r o).trans ?_
  show G m c _ = G m c _
  congr 1
  funext a
  apply Fin.ext
  have hj0 : j0.val = 0 := by omega
  match a with
  | ⟨0, _⟩ => show t.val = win0_3.index t (0 : Fin 3) * 1 + 1 * j0.val; rw [e6, hj0]; omega
  | ⟨1, _⟩ => show r.val = win0_3.index t (1 : Fin 3) * 2048 + 1 * r.val; rw [e7]; omega
  | ⟨2, _⟩ => show o.val = win0_3.index t (2 : Fin 3) * 128 + 1 * o.val; rw [e8]; omega

/-- An index of the result array is in point `t`'s block iff each coordinate is in the block's range on its axis. -/
theorem mem_blk (t : Fin cfg0.N) (i : S16x2048x128.Idx) :
    i ∈ ((cfg0.win 3).blk t).view.set ↔ ∀ a : Fin 3, win0_3.index t a * S1x2048x128.size a ≤ (i a).val ∧ (i a).val < win0_3.index t a * S1x2048x128.size a + S1x2048x128.size a := by
  show i ∈ ((View.whole main_v3).slice (win0_3.rect t)).set ↔ _
  rw [View.set_slice_whole, Rect.mem_set_unit]
  exact Iff.rfl

/-- The result array after the run is the layer's output. -/
theorem final (c : Dev nD) : (dats m 0 c).arrAt 3 cfg0.N = G m c :=
  (dats m 0 c).arrAt_eq_of_cover 3 (G m c) (fun t _ => flushed_eq m c t) fun i => by
    have hi0 : (i 0).val < 16 := (i 0).isLt
    have hi1 : (i 1).val < 2048 := (i 1).isLt
    have hi2 : (i 2).val < 128 := (i 2).isLt
    obtain ⟨t, htv⟩ : ∃ t : Fin cfg0.N, t.val = (i 0).val := ⟨⟨(i 0).val, Nat.lt_of_lt_of_eq hi0 N_0.symm⟩, rfl⟩
    refine ⟨t, flush0_3 t, ?_⟩
    rw [mem_blk]
    obtain ⟨-, -, -, -, -, -, e6, e7, e8⟩ := idx_facts t
    intro a
    match a with
    | ⟨0, _⟩ => show win0_3.index t (0 : Fin 3) * 1 ≤ (i 0).val ∧ (i 0).val < win0_3.index t (0 : Fin 3) * 1 + 1; rw [e6]; omega
    | ⟨1, _⟩ => show win0_3.index t (1 : Fin 3) * 2048 ≤ (i 1).val ∧ (i 1).val < win0_3.index t (1 : Fin 3) * 2048 + 2048; rw [e7]; omega
    | ⟨2, _⟩ => show win0_3.index t (2 : Fin 3) * 128 ≤ (i 2).val ∧ (i 2).val < win0_3.index t (2 : Fin 3) * 128 + 128; rw [e8]; omega

/-- The kernel's run: every weakly fair execution ends with the result array at the layer's output of the argument
    arrays, and the arguments unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.LagValue

end
-- ==== Proof.RefValue.lean ====
/-
  The value of the reference program is the lagged-feature layer.

  The program makes, for each lag index `l = 0, …, 50`, a copy of the stack `x` moved `l - 10` rows along the row
  axis with zero fill: for `l < 10` the rows from `10 - l` on, padded behind; for `l > 10` the first rows, padded in
  front; for `l = 10` the stack itself. Read at `(b, t, d)` each copy is `lagAt 0 2048 (x (b, ·, d)) 10 l t`. The
  copies stand side by side along the last axis — three banks of 16 and one of 3, then the four banks — so column
  `k` of the whole is entry `k % 64` of the copy of lag index `k / 64`: the feature `lagged x b t k`. The
  contraction with the weights over all 3264 columns plus the broadcast bias is then the layer's output, entry by
  entry.
-/
import proofs.«100027_j36764920054343_1_alg».proof.Proof.RefRead
import proofs.«100027_j36764920054343_1_alg».proof.Proof.LagSpec

noncomputable section

namespace Cert.ReferenceIdeal.RefValue

open Cert.ReferenceIdeal Cert.ReferenceIdeal.Gen Cert.ReferenceIdeal.ReadP Idealize.ShloMosaic Idealize.ShloMosaic.ValueIdx LagRows Cert.LagSpec

/-- The fill value of every padded copy is the integer zero read as a real: zero. -/
theorem fill_zero (i : S_.Idx) :
    (sitofp .f32 (constantI S_ 32 0#32) : S_.Idx → Ideal .f32) i = (0 : EReal) := by
  show (((0#32 : BitVec 32).toInt : ℝ) : EReal) = 0
  simp

/-! ## One copy, read at an index -/

section Pieces

variable (x0 : (⟨3, ![16, 2048, 64]⟩ : Shape).Idx → EReal)

/-- Rows `a, a+1, …` padded behind with `a` zero rows: lag index `l = 10 - a`. -/
theorem high_piece {n a : Nat} (l : Nat) (hN : a + n = 2048) (hl : l + a = 10) (w : S_.Idx → EReal)
    (hw : w (Shape.Idx.first h_S_) = 0)
    (hs : (⟨3, ![16, 2048, 64]⟩ : Shape).Slices ![0, a, 0] ⟨3, ![16, n, 64]⟩)
    (hp : (⟨3, ![16, n, 64]⟩ : Shape).Pads ![0, 0, 0] ![0, a, 0] ![0, 0, 0] ⟨3, ![16, 2048, 64]⟩)
    (b : Fin 16) (t : Fin 2048) (d : Fin 64) :
    pad ⟨3, ![16, 2048, 64]⟩ ![0, 0, 0] ![0, a, 0] ![0, 0, 0] (extractStridedSlice ⟨3, ![16, n, 64]⟩ ![0, a, 0] x0 hs) w hp h_S_ (ix3 b t d)
      = lagAt 0 2048 (fun r => x0 (ix3 b r d)) 10 l t.val := by
  rw [pad_high_slice_apply hN x0 w h_S_ hs hp 10 l hl b t d, hw]

/-- The first rows padded in front with `a` zero rows: lag index `l = 10 + a`. -/
theorem low_piece {n a : Nat} (l : Nat) (hN : a + n = 2048) (hl : 10 + a = l) (w : S_.Idx → EReal)
    (hw : w (Shape.Idx.first h_S_) = 0)
    (hs : (⟨3, ![16, 2048, 64]⟩ : Shape).Slices ![0, 0, 0] ⟨3, ![16, n, 64]⟩)
    (hp : (⟨3, ![16, n, 64]⟩ : Shape).Pads ![0, a, 0] ![0, 0, 0] ![0, 0, 0] ⟨3, ![16, 2048, 64]⟩)
    (b : Fin 16) (t : Fin 2048) (d : Fin 64) :
    pad ⟨3, ![16, 2048, 64]⟩ ![0, a, 0] ![0, 0, 0] ![0, 0, 0] (extractStridedSlice ⟨3, ![16, n, 64]⟩ ![0, 0, 0] x0 hs) w hp h_S_ (ix3 b t d)
      = lagAt 0 2048 (fun r => x0 (ix3 b r d)) 10 l t.val := by
  rw [pad_low_slice_apply hN x0 w h_S_ hs hp 10 l hl b t d, hw]

/-- The unmoved copy: lag index 10. -/
theorem same_piece (l : Nat) (hl : l = 10) (b : Fin 16) (t : Fin 2048) (d : Fin 64) :
    x0 (ix3 b t d) = lagAt 0 2048 (fun r => x0 (ix3 b r d)) 10 l t.val :=
  (lagAt_of_row 0 2048 (fun r => x0 (ix3 b r d)) 10 l t.val t (by omega)).symm

/-! ## The four banks of copies: bank `c` holds lag indices `16 c, 16 c + 1, …` -/

/-- The copies of bank 0, in order. -/
def tbl0 : Fin 16 → ((⟨3, ![16, 2048, 64]⟩ : Shape).Idx → EReal) :=
  ![val_main_v1 (F := Ideal) x0, val_main_v3 (F := Ideal) x0, val_main_v5 (F := Ideal) x0, val_main_v7 (F := Ideal) x0,
    val_main_v9 (F := Ideal) x0, val_main_v11 (F := Ideal) x0, val_main_v13 (F := Ideal) x0, val_main_v15 (F := Ideal) x0,
    val_main_v17 (F := Ideal) x0, val_main_v19 (F := Ideal) x0, x0, val_main_v21 (F := Ideal) x0,
    val_main_v23 (F := Ideal) x0, val_main_v25 (F := Ideal) x0, val_main_v27 (F := Ideal) x0, val_main_v29 (F := Ideal) x0]

theorem tbl0_apply (n : Fin 16) (b : Fin 16) (t : Fin 2048) (d : Fin 64) :
    tbl0 x0 n (ix3 b t d) = lagAt 0 2048 (fun r => x0 (ix3 b r d)) 10 (0 + n.val) t.val := by
  fin_cases n <;>
  first
    | exact high_piece x0 _ (by decide) (by decide) _ (fill_zero _) (by decide) (by decide) b t d
    | exact low_piece x0 _ (by decide) (by decide) _ (fill_zero _) (by decide) (by decide) b t d
    | exact same_piece x0 _ (by decide) b t d

/-- The copies of bank 1, in order. -/
def tbl1 : Fin 16 → ((⟨3, ![16, 2048, 64]⟩ : Shape).Idx → EReal) :=
  ![val_main_v31 (F := Ideal) x0, val_main_v33 (F := Ideal) x0, val_main_v35 (F := Ideal) x0, val_main_v37 (F := Ideal) x0,
    val_main_v39 (F := Ideal) x0, val_main_v41 (F := Ideal) x0, val_main_v43 (F := Ideal) x0, val_main_v45 (F := Ideal) x0,
    val_main_v47 (F := Ideal) x0, val_main_v49 (F := Ideal) x0, val_main_v51 (F := Ideal) x0, val_main_v53 (F := Ideal) x0,
    val_main_v55 (F := Ideal) x0, val_main_v57 (F := Ideal) x0, val_main_v59 (F := Ideal) x0, val_main_v61 (F := Ideal) x0]

theorem tbl1_apply (n : Fin 16) (b : Fin 16) (t : Fin 2048) (d : Fin 64) :
    tbl1 x0 n (ix3 b t d) = lagAt 0 2048 (fun r => x0 (ix3 b r d)) 10 (16 + n.val) t.val := by
  fin_cases n <;>
  first
    | exact high_piece x0 _ (by decide) (by decide) _ (fill_zero _) (by decide) (by decide) b t d
    | exact low_piece x0 _ (by decide) (by decide) _ (fill_zero _) (by decide) (by decide) b t d
    | exact same_piece x0 _ (by decide) b t d

/-- The copies of bank 2, in order. -/
def tbl2 : Fin 16 → ((⟨3, ![16, 2048, 64]⟩ : Shape).Idx → EReal) :=
  ![val_main_v63 (F := Ideal) x0, val_main_v65 (F := Ideal) x0, val_main_v67 (F := Ideal) x0, val_main_v69 (F := Ideal) x0,
    val_main_v71 (F := Ideal) x0, val_main_v73 (F := Ideal) x0, val_main_v75 (F := Ideal) x0, val_main_v77 (F := Ideal) x0,
    val_main_v79 (F := Ideal) x0, val_main_v81 (F := Ideal) x0, val_main_v83 (F := Ideal) x0, val_main_v85 (F := Ideal) x0,
    val_main_v87 (F := Ideal) x0, val_main_v89 (F := Ideal) x0, val_main_v91 (F := Ideal) x0, val_main_v93 (F := Ideal) x0]

theorem tbl2_apply (n : Fin 16) (b : Fin 16) (t : Fin 2048) (d : Fin 64) :
    tbl2 x0 n (ix3 b t d) = lagAt 0 2048 (fun r => x0 (ix3 b r d)) 10 (32 + n.val) t.val := by
  fin_cases n <;>
  first
    | exact high_piece x0 _ (by decide) (by decide) _ (fill_zero _) (by decide) (by decide) b t d
    | exact low_piece x0 _ (by decide) (by decide) _ (fill_zero _) (by decide) (by decide) b t d
    | exact same_piece x0 _ (by decide) b t d

/-- The copies of bank 3, in order. -/
def tbl3 : Fin 3 → ((⟨3, ![16, 2048, 64]⟩ : Shape).Idx → EReal) :=
  ![val_main_v95 (F := Ideal) x0, val_main_v97 (F := Ideal) x0, val_main_v99 (F := Ideal) x0]

theorem tbl3_apply (n : Fin 3) (b : Fin 16) (t : Fin 2048) (d : Fin 64) :
    tbl3 x0 n (ix3 b t d) = lagAt 0 2048 (fun r => x0 (ix3 b r d)) 10 (48 + n.val) t.val := by
  fin_cases n <;>
  first
    | exact high_piece x0 _ (by decide) (by decide) _ (fill_zero _) (by decide) (by decide) b t d
    | exact low_piece x0 _ (by decide) (by decide) _ (fill_zero _) (by decide) (by decide) b t d
    | exact same_piece x0 _ (by decide) b t d

end Pieces

/-! ## Copies set side by side along the last axis -/

/-- `K` pieces `[B, N, D]` side by side along the last axis, read at `(b, t, c)`: piece `c / D` at `(b, t, c % D)`. -/
theorem concat_last_apply {α : Type} {B N D K C : Nat} (hD : 0 < D) (f : Fin K → ((⟨3, ![B, N, D]⟩ : Shape).Idx → α))
    (hc : Shape.Concatenates ((List.ofFn fun n : Fin K => ((⟨⟨3, ![B, N, D]⟩, f n⟩ : (s : Shape) × (s.Idx → α)))).map (·.1)) ⟨3, ![B, N, C]⟩ 2)
    (b : Fin B) (t : Fin N) (c : Fin C) (hq : c.val / D < K) :
    concatenate ⟨3, ![B, N, C]⟩ 2 (List.ofFn fun n : Fin K => ((⟨⟨3, ![B, N, D]⟩, f n⟩ : (s : Shape) × (s.Idx → α)))) hc (ix3 b t c)
      = f ⟨c.val / D, hq⟩ (ix3 b t (⟨c.val % D, Nat.mod_lt _ hD⟩ : Fin D)) := by
  refine concatenate_ofFn_apply (t := ⟨3, ![B, N, C]⟩) (s₁ := ⟨3, ![B, N, D]⟩) (2 : Fin 3) f hc rfl D rfl (ix3 b t c) ⟨c.val / D, hq⟩ rfl
    (ix3 b t (⟨c.val % D, Nat.mod_lt _ hD⟩ : Fin D)) rfl ?_
  intro a ha; match a with | ⟨0, _⟩ => rfl | ⟨1, _⟩ => rfl | ⟨2, _⟩ => exact absurd rfl ha

section Banks

variable (x0 : (⟨3, ![16, 2048, 64]⟩ : Shape).Idx → EReal)

/-- Bank 0 read at `(b, t, c)`: lag index `0 + c / 64`, entry `c % 64`. -/
theorem bank0_apply (b : Fin 16) (t : Fin 2048) (c : Fin 1024) :
    val_main_v100 (F := Ideal) x0 (ix3 b t c)
      = lagAt 0 2048 (fun r => x0 (ix3 b r (⟨c.val % 64, Nat.mod_lt _ (by decide)⟩ : Fin 64))) 10 (0 + c.val / 64) t.val := by
  have hq : c.val / 64 < 16 := by have := c.isLt; omega
  refine (concat_last_apply (B := 16) (N := 2048) (D := 64) (K := 16) (C := 1024) (by decide) (tbl0 x0)
    concatenates_S16x2048x64_S16x2048x64_S16x2048x64_S16x2048x64_S16x2048x64_S16x2048x64_S16x2048x64_S16x2048x64_S16x2048x64_S16x2048x64_S16x2048x64_S16x2048x64_S16x2048x64_S16x2048x64_S16x2048x64_S16x2048x64_S16x2048x1024_d2
    b t c hq).trans ?_
  exact tbl0_apply x0 ⟨c.val / 64, hq⟩ b t _

/-- Bank 1 read at `(b, t, c)`: lag index `16 + c / 64`, entry `c % 64`. -/
theorem bank1_apply (b : Fin 16) (t : Fin 2048) (c : Fin 1024) :
    val_main_v101 (F := Ideal) x0 (ix3 b t c)
      = lagAt 0 2048 (fun r => x0 (ix3 b r (⟨c.val % 64, Nat.mod_lt _ (by decide)⟩ : Fin 64))) 10 (16 + c.val / 64) t.val := by
  have hq : c.val / 64 < 16 := by have := c.isLt; omega
  refine (concat_last_apply (B := 16) (N := 2048) (D := 64) (K := 16) (C := 1024) (by decide) (tbl1 x0)
    concatenates_S16x2048x64_S16x2048x64_S16x2048x64_S16x2048x64_S16x2048x64_S16x2048x64_S16x2048x64_S16x2048x64_S16x2048x64_S16x2048x64_S16x2048x64_S16x2048x64_S16x2048x64_S16x2048x64_S16x2048x64_S16x2048x64_S16x2048x1024_d2
    b t c hq).trans ?_
  exact tbl1_apply x0 ⟨c.val / 64, hq⟩ b t _

/-- Bank 2 read at `(b, t, c)`: lag index `32 + c / 64`, entry `c % 64`. -/
theorem bank2_apply (b : Fin 16) (t : Fin 2048) (c : Fin 1024) :
    val_main_v102 (F := Ideal) x0 (ix3 b t c)
      = lagAt 0 2048 (fun r => x0 (ix3 b r (⟨c.val % 64, Nat.mod_lt _ (by decide)⟩ : Fin 64))) 10 (32 + c.val / 64) t.val := by
  have hq : c.val / 64 < 16 := by have := c.isLt; omega
  refine (concat_last_apply (B := 16) (N := 2048) (D := 64) (K := 16) (C := 1024) (by decide) (tbl2 x0)
    concatenates_S16x2048x64_S16x2048x64_S16x2048x64_S16x2048x64_S16x2048x64_S16x2048x64_S16x2048x64_S16x2048x64_S16x2048x64_S16x2048x64_S16x2048x64_S16x2048x64_S16x2048x64_S16x2048x64_S16x2048x64_S16x2048x64_S16x2048x1024_d2
    b t c hq).trans ?_
  exact tbl2_apply x0 ⟨c.val / 64, hq⟩ b t _

/-- Bank 3 (three copies) read at `(b, t, c)`: lag index `48 + c / 64`, entry `c % 64`. -/
theorem bank3_apply (b : Fin 16) (t : Fin 2048) (c : Fin 192) :
    val_main_v103 (F := Ideal) x0 (ix3 b t c)
      = lagAt 0 2048 (fun r => x0 (ix3 b r (⟨c.val % 64, Nat.mod_lt _ (by decide)⟩ : Fin 64))) 10 (48 + c.val / 64) t.val := by
  have hq : c.val / 64 < 3 := by have := c.isLt; omega
  refine (concat_last_apply (B := 16) (N := 2048) (D := 64) (K := 3) (C := 192) (by decide) (tbl3 x0)
    concatenates_S16x2048x64_S16x2048x64_S16x2048x64_S16x2048x192_d2
    b t c hq).trans ?_
  exact tbl3_apply x0 ⟨c.val / 64, hq⟩ b t _

end Banks

/-! ## All 51 copies side by side, and the layer -/

section Whole

variable (x0 : (⟨3, ![16, 2048, 64]⟩ : Shape).Idx → EReal)

/-- Entry `d` of the copy of lag index `l`, as feature `k = 64 l + d`. -/
theorem lagged_of (b : Fin 16) (t : Fin 2048) (k l d : Nat) (hd : d < 64) (hl : l = k / 64) (hdk : d = k % 64) :
    lagAt 0 2048 (fun r => x0 (ix3 b r (⟨d, hd⟩ : Fin 64))) 10 l t.val = lagged x0 b t k := by
  subst hl hdk; rfl

/-- The four banks side by side are the features: column `k` lies in bank `k / 1024`, at column `k % 1024` there. -/
theorem lagged_ref (b : Fin 16) (t : Fin 2048) (k : Fin 3264) :
    val_main_v104 (F := Ideal) x0 (ix3 b t k) = lagged x0 b t k.val := by
  have hk := k.isLt
  unfold val_main_v104
  by_cases h1 : k.val < 1024
  · refine (concatenate_apply_piece (t := S16x2048x3264) (2 : Fin 3) _ _ (ix3 b t k) 0 (by show 0 < 4; omega)
      S16x2048x1024 (val_main_v100 (F := Ideal) x0) rfl rfl 0 rfl (ix3 b t (⟨k.val - 0, by omega⟩ : Fin 1024)) ?_ ?_).trans ?_
    · intro a ha; match a with | ⟨0, _⟩ => rfl | ⟨1, _⟩ => rfl | ⟨2, _⟩ => exact absurd rfl ha
    · show 0 + (k.val - 0) = k.val; omega
    · rw [bank0_apply]
      exact lagged_of x0 b t k.val _ _ _ (by show 0 + (k.val - 0) / 64 = k.val / 64; omega) (by show (k.val - 0) % 64 = k.val % 64; omega)
  by_cases h2 : k.val < 2048
  · refine (concatenate_apply_piece (t := S16x2048x3264) (2 : Fin 3) _ _ (ix3 b t k) 1 (by show 1 < 4; omega)
      S16x2048x1024 (val_main_v101 (F := Ideal) x0) rfl rfl 1024 rfl (ix3 b t (⟨k.val - 1024, by omega⟩ : Fin 1024)) ?_ ?_).trans ?_
    · intro a ha; match a with | ⟨0, _⟩ => rfl | ⟨1, _⟩ => rfl | ⟨2, _⟩ => exact absurd rfl ha
    · show 1024 + (k.val - 1024) = k.val; omega
    · rw [bank1_apply]
      exact lagged_of x0 b t k.val _ _ _ (by show 16 + (k.val - 1024) / 64 = k.val / 64; omega) (by show (k.val - 1024) % 64 = k.val % 64; omega)
  by_cases h3 : k.val < 3072
  · refine (concatenate_apply_piece (t := S16x2048x3264) (2 : Fin 3) _ _ (ix3 b t k) 2 (by show 2 < 4; omega)
      S16x2048x1024 (val_main_v102 (F := Ideal) x0) rfl rfl 2048 rfl (ix3 b t (⟨k.val - 2048, by omega⟩ : Fin 1024)) ?_ ?_).trans ?_
    · intro a ha; match a with | ⟨0, _⟩ => rfl | ⟨1, _⟩ => rfl | ⟨2, _⟩ => exact absurd rfl ha
    · show 2048 + (k.val - 2048) = k.val; omega
    · rw [bank2_apply]
      exact lagged_of x0 b t k.val _ _ _ (by show 32 + (k.val - 2048) / 64 = k.val / 64; omega) (by show (k.val - 2048) % 64 = k.val % 64; omega)
  · refine (concatenate_apply_piece (t := S16x2048x3264) (2 : Fin 3) _ _ (ix3 b t k) 3 (by show 3 < 4; omega)
      S16x2048x192 (val_main_v103 (F := Ideal) x0) rfl rfl 3072 rfl (ix3 b t (⟨k.val - 3072, by omega⟩ : Fin 192)) ?_ ?_).trans ?_
    · intro a ha; match a with | ⟨0, _⟩ => rfl | ⟨1, _⟩ => rfl | ⟨2, _⟩ => exact absurd rfl ha
    · show 3072 + (k.val - 3072) = k.val; omega
    · rw [bank3_apply]
      exact lagged_of x0 b t k.val _ _ _ (by show 48 + (k.val - 3072) / 64 = k.val / 64; omega) (by show (k.val - 3072) % 64 = k.val % 64; omega)

end Whole

/-- The value of the reference program is the layer's output. -/
theorem val_eq_out (x0 : (⟨S16x2048x64, .f32⟩ : BufTy).Contents (Elt Ideal)) (x1 : (⟨S128x3264, .f32⟩ : BufTy).Contents (Elt Ideal))
    (x2 : (⟨S128, .f32⟩ : BufTy).Contents (Elt Ideal)) :
    Cert.ReferenceIdeal.ReadP.val_main_v108 (F := Ideal) x0 x1 x2 = Cert.LagSpec.out x0 x1 x2 := by
  funext i
  obtain ⟨b, t, o, rfl⟩ : ∃ (b : Fin 16) (t : Fin 2048) (o : Fin 128), i = ix3 b t o := ⟨i 0, i 1, i 2, eq_ix3 i⟩
  rw [val_main_v108_apply, val_main_v105_apply, val_main_v107_apply, val_main_v106_apply]
  have e1 : ∀ k : Fin 3264, lidx_main_v105 (ix3 b t o) k = ix3 b t k := fun k =>
    funext fun a => match a with | ⟨0, _⟩ => rfl | ⟨1, _⟩ => rfl | ⟨2, _⟩ => rfl
  have e2 : ∀ k : Fin 3264, ridx_main_v105 (ix3 b t o) k = ix2 o k := fun k =>
    funext fun a => match a with | ⟨0, _⟩ => rfl | ⟨1, _⟩ => rfl
  have e3 : idx_main_v106 (idx_main_v107 (ix3 b t o)) = ix1 o :=
    funext fun a => match a with | ⟨0, _⟩ => rfl
  show (∑ k : Fin 3264, val_main_v104 (F := Ideal) x0 (lidx_main_v105 (ix3 b t o) k) * x1 (ridx_main_v105 (ix3 b t o) k))
      + x2 (idx_main_v106 (idx_main_v107 (ix3 b t o)))
    = (∑ k : Fin 3264, lagged x0 b t k.val * x1 (ix2 o k)) + x2 (ix1 o)
  rw [e3]
  refine congrArg (· + x2 (ix1 o)) (Finset.sum_congr rfl fun k _ => ?_)
  rw [e1 k, e2 k, lagged_ref x0 b t k]

end Cert.ReferenceIdeal.RefValue

end
-- ==== Proof.lean ====
/-
  The kernel computes a linear map of time-lagged features, and so does its reference.

  From a stack of 16 sequences of 2048 rows of 64 entries, row `t` gets 3264 features — feature `64 l + d` is entry `d` of
  row `t + 10 - l`, zero where the sequence has no such row (51 lags, from 10 rows ahead to 40 rows behind) — and the output
  row is a 128 by 3264 weight matrix applied to them, plus a bias. The reference lays the 51 shifted copies side by side
  and takes one product. The kernel, one sequence per grid point, adds to a running total the product of four lags at a
  time with the matching 256 rows of the transposed weights, thirteen times, and adds the bias last. On the extended reals
  the two are the same sum, grouped differently; addition there is commutative and associative, so nothing about the
  inputs' finiteness is needed. The three programs' frames are their runs; the idealization rewrote nothing.
-/
import proofs.«100027_j36764920054343_1_alg».proof.Defs
import proofs.«100027_j36764920054343_1_alg».proof.Proof.Gen.Kernel
import proofs.«100027_j36764920054343_1_alg».proof.Proof.Gen.Kernel.Frame
import proofs.«100027_j36764920054343_1_alg».proof.Proof.Gen.KernelIdeal
import proofs.«100027_j36764920054343_1_alg».proof.Proof.Gen.KernelIdeal.Frame
import proofs.«100027_j36764920054343_1_alg».proof.Proof.Gen.KernelIdeal.Value
import proofs.«100027_j36764920054343_1_alg».proof.Proof.Gen.ReferenceIdeal
import proofs.«100027_j36764920054343_1_alg».proof.Proof.Gen.Pre_finite_inputs
import proofs.«100027_j36764920054343_1_alg».proof.Proof.KernelValue
import proofs.«100027_j36764920054343_1_alg».proof.Proof.RefValue
import proofs.«100027_j36764920054343_1_alg».proof.Proof.RefRun

noncomputable section

namespace Cert.Proof

open Idealize.ShloMosaic Idealize.ShloMosaic.TcCoe Idealize.SL.Sem

/-- The word-level kernel's frame: generated whole. -/
theorem frame_k : Cert.frame_Kernel (hKernel := Cert.Kernel.Gen.facts) (hPre_finite_inputs := Cert.Pre_finite_inputs.Gen.facts) :=
  fun m ρ _ => Cert.Kernel.Gen.frame m ρ

/-- The idealized kernel's frame: generated whole. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end with the layer's output of the arguments: the kernel by its thirteen blocks per grid point, the
    reference by its one sum; the arguments agree, so the results do. No finiteness is used: the two sums differ only in
    grouping. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.LagValue.G m c, Cert.KernelIdeal.LagValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.val_eq_out, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
